-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S9x64 : Shape := ⟨2, ![9, 64]⟩
abbrev S5x64 : Shape := ⟨2, ![5, 64]⟩
abbrev S9 : Shape := ⟨1, ![9]⟩
abbrev S5 : Shape := ⟨1, ![5]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S5x64 : S_.BroadcastsInDim S5x64 (![] : Fin 0 → Fin S5x64.rank)
  reducesTo_S5x64_S_d0_1 : S5x64.ReducesTo [0, 1] S_
  bcast_S_S9 : S_.BroadcastsInDim S9 (![] : Fin 0 → Fin S9.rank)
  reducesTo_S9_S_d0 : S9.ReducesTo [0] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S9 .f32) (main_arg5 : FVec F S5 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S32x512 .f32) (main_arg1 : FVec F S9x64 .f32) (main_arg2 : FVec F S9x64 .f32) (main_arg3 : FVec F S5x64 .f32) (main_arg4 : FVec F S9 .f32) (main_arg5 : FVec F S5 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S9x64 .f32 := Host.absf main_arg2
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S5x64 .f32 := Host.absf main_arg3
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg4 main_arg5 main_v13 main_v16
-- ==== Kernel.lean ====
abbrev S32x512 : Shape := ⟨2, ![32, 512]⟩
abbrev S9x64 : Shape := ⟨2, ![9, 64]⟩
abbrev S5x64 : Shape := ⟨2, ![5, 64]⟩
abbrev S9 : Shape := ⟨1, ![9]⟩
abbrev S5 : Shape := ⟨1, ![5]⟩
abbrev S16384x1 : Shape := ⟨2, ![16384, 1]⟩
abbrev S16384x64 : Shape := ⟨2, ![16384, 64]⟩
abbrev S128x1 : Shape := ⟨2, ![128, 1]⟩
abbrev S128x64 : Shape := ⟨2, ![128, 64]⟩
abbrev S1x5 : Shape := ⟨2, ![1, 5]⟩
abbrev S128x5 : Shape := ⟨2, ![128, 5]⟩
abbrev S128 : Shape := ⟨1, ![128]⟩
abbrev S1x1x9 : Shape := ⟨3, ![1, 1, 9]⟩
abbrev S128x5x1 : Shape := ⟨3, ![128, 5, 1]⟩
abbrev S128x5x9 : Shape := ⟨3, ![128, 5, 9]⟩
abbrev S1x1x9x64 : Shape := ⟨4, ![1, 1, 9, 64]⟩
abbrev S1x1x9x1 : Shape := ⟨4, ![1, 1, 9, 1]⟩
abbrev S128x5x1x1 : Shape := ⟨4, ![128, 5, 1, 1]⟩
abbrev S128x5x9x64 : Shape := ⟨4, ![128, 5, 9, 64]⟩
abbrev S128x5x9x1 : Shape := ⟨4, ![128, 5, 9, 1]⟩
abbrev S128x5x64 : Shape := ⟨3, ![128, 5, 64]⟩
abbrev S1x5x64 : Shape := ⟨3, ![1, 5, 64]⟩
abbrev S32x512x64 : Shape := ⟨3, ![32, 512, 64]⟩

abbrev nBuf : Space → Nat
  | .hbm => 9
  | .vmem => 9
  | .smem => 0
  | _ => 0

abbrev bufTy : (tb : Table) → Fin (tcTables nBuf tb) → BufTy
  | .hbm, ⟨0, _⟩ => ⟨S32x512, .f32⟩
  | .hbm, ⟨1, _⟩ => ⟨S9x64, .f32⟩
  | .hbm, ⟨2, _⟩ => ⟨S9x64, .f32⟩
  | .hbm, ⟨3, _⟩ => ⟨S5x64, .f32⟩
  | .hbm, ⟨4, _⟩ => ⟨S9, .f32⟩
  | .hbm, ⟨5, _⟩ => ⟨S5, .f32⟩
  | .hbm, ⟨6, _⟩ => ⟨S16384x1, .f32⟩
  | .hbm, ⟨7, _⟩ => ⟨S16384x64, .f32⟩
  | .hbm, ⟨8, _⟩ => ⟨S32x512x64, .f32⟩
  | .local _ .vmem, ⟨0, _⟩ => ⟨S128x1, .f32⟩
  | .local _ .vmem, ⟨1, _⟩ => ⟨S128x1, .f32⟩
  | .local _ .vmem, ⟨2, _⟩ => ⟨S5, .f32⟩
  | .local _ .vmem, ⟨3, _⟩ => ⟨S9, .f32⟩
  | .local _ .vmem, ⟨4, _⟩ => ⟨S9x64, .f32⟩
  | .local _ .vmem, ⟨5, _⟩ => ⟨S9x64, .f32⟩
  | .local _ .vmem, ⟨6, _⟩ => ⟨S5x64, .f32⟩
  | .local _ .vmem, ⟨7, _⟩ => ⟨S128x64, .f32⟩
  | .local _ .vmem, ⟨8, _⟩ => ⟨S128x64, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x512_S16384x1 : S32x512.ShapeCasts S16384x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5_S5_0 : ∀ a, (![0] : Fin 1 → Nat) a + S5.size a ≤ S5.size a
  h_S5 : 0 < S5.numel
  shapeCasts_S5_S1x5 : S5.ShapeCasts S1x5
  broadcasts_S128x1_S128x5 : S128x1.Broadcasts S128x5
  broadcasts_S1x5_S128x5 : S1x5.Broadcasts S128x5
  reduces_S128x5_S128 : S128x5.Reduces [1] S128
  shapeCasts_S128_S128x1 : S128.ShapeCasts S128x1
  inb_S9_S9_0 : ∀ a, (![0] : Fin 1 → Nat) a + S9.size a ≤ S9.size a
  h_S9 : 0 < S9.numel
  shapeCasts_S9_S1x1x9 : S9.ShapeCasts S1x1x9
  shapeCasts_S128x5_S128x5x1 : S128x5.ShapeCasts S128x5x1
  broadcasts_S128x5x1_S128x5x9 : S128x5x1.Broadcasts S128x5x9
  broadcasts_S1x1x9_S128x5x9 : S1x1x9.Broadcasts S128x5x9
  reduces_S128x5x9_S128x5 : S128x5x9.Reduces [2] S128x5
  inb_S9x64_S9x64_0_0 : ∀ a, (![0, 0] : Fin 2 → Nat) a + S9x64.size a ≤ S9x64.size a
  h_S9x64 : 0 < S9x64.numel
  shapeCasts_S9x64_S1x1x9x64 : S9x64.ShapeCasts S1x1x9x64
  shapeCasts_S9_S1x1x9x1 : S9.ShapeCasts S1x1x9x1
  shapeCasts_S128x5_S128x5x1x1 : S128x5.ShapeCasts S128x5x1x1
  broadcasts_S128x5x1x1_S128x5x9x64 : S128x5x1x1.Broadcasts S128x5x9x64
  broadcasts_S1x1x9x64_S128x5x9x64 : S1x1x9x64.Broadcasts S128x5x9x64
  broadcasts_S1x1x9x1_S1x1x9x64 : S1x1x9x1.Broadcasts S1x1x9x64
  reduces_S128x5x9x64_S128x5x9 : S128x5x9x64.Reduces [3] S128x5x9
  shapeCasts_S128x5x9_S128x5x9x1 : S128x5x9.ShapeCasts S128x5x9x1
  broadcasts_S128x5x9x1_S128x5x9x64 : S128x5x9x1.Broadcasts S128x5x9x64
  reduces_S128x5x9x64_S128x5x64 : S128x5x9x64.Reduces [2] S128x5x64
  inb_S5x64_S5x64_0_0 : ∀ a, (![0, 0] : Fin 2 → Nat) a + S5x64.size a ≤ S5x64.size a
  h_S5x64 : 0 < S5x64.numel
  shapeCasts_S5x64_S1x5x64 : S5x64.ShapeCasts S1x5x64
  broadcasts_S1x5x64_S128x5x64 : S1x5x64.Broadcasts S128x5x64
  broadcasts_S128x5x1_S128x5x64 : S128x5x1.Broadcasts S128x5x64
  reduces_S128x5x64_S128x64 : S128x5x64.Reduces [1] S128x64
  inb_S128x64_S128x64_0_0 : ∀ a, (![0, 0] : Fin 2 → Nat) a + S128x64.size a ≤ S128x64.size a
  h_S128x64 : 0 < S128x64.numel
  shapeCasts_S16384x64_S32x512x64 : S16384x64.ShapeCasts S32x512x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S16384x1.size a
  hwx0_0 : ∀ i : grid0.Coords, EltTy.bits .f32 = 32 ∨ (Rect.block (s := S16384x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5.size a ≤ S5.size a
  hwx0_1 : ∀ i : grid0.Coords, EltTy.bits .f32 = 32 ∨ (Rect.block (s := S5) S5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9.size a ≤ S9.size a
  hwx0_2 : ∀ i : grid0.Coords, EltTy.bits .f32 = 32 ∨ (Rect.block (s := S9) S9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x64.size a ≤ S9x64.size a
  hwx0_4 : ∀ i : grid0.Coords, EltTy.bits .f32 = 32 ∨ (Rect.block (s := S9x64) S9x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64.size a ≤ S5x64.size a
  hwx0_5 : ∀ i : grid0.Coords, EltTy.bits .f32 = 32 ∨ (Rect.block (s := S5x64) S5x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S16384x64.size a
  hwx0_6 : ∀ i : grid0.Coords, EltTy.bits .f32 = 32 ∨ (Rect.block (s := S16384x64) S128x64.size (cc0_transform_6 i) (hinb0_6 i)).WholeWords (EltTy.packing .f32)

variable [Facts₀]

abbrev win0_0 : Pipeline.Window sig grid0 :=
  Pipeline.Window.ofSpec (Memref.whole main_v0) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S9x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S5x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512 : Shape := ⟨2, ![32, 512]⟩
abbrev S9x64 : Shape := ⟨2, ![9, 64]⟩
abbrev S5x64 : Shape := ⟨2, ![5, 64]⟩
abbrev S9 : Shape := ⟨1, ![9]⟩
abbrev S5 : Shape := ⟨1, ![5]⟩
abbrev S32x512x1 : Shape := ⟨3, ![32, 512, 1]⟩
abbrev S1x1x5 : Shape := ⟨3, ![1, 1, 5]⟩
abbrev S32x512x5 : Shape := ⟨3, ![32, 512, 5]⟩
abbrev S_ : Shape := ⟨0, ![]⟩
abbrev S32x512x5x1 : Shape := ⟨4, ![32, 512, 5, 1]⟩
abbrev S1x1x1x9 : Shape := ⟨4, ![1, 1, 1, 9]⟩
abbrev S32x512x5x9 : Shape := ⟨4, ![32, 512, 5, 9]⟩
abbrev S32x512x5x1x1 : Shape := ⟨5, ![32, 512, 5, 1, 1]⟩
abbrev S1x1x1x9x64 : Shape := ⟨5, ![1, 1, 1, 9, 64]⟩
abbrev S32x512x5x9x64 : Shape := ⟨5, ![32, 512, 5, 9, 64]⟩
abbrev S9x1 : Shape := ⟨2, ![9, 1]⟩
abbrev S32x512x5x9x1 : Shape := ⟨5, ![32, 512, 5, 9, 1]⟩
abbrev S32x512x5x64 : Shape := ⟨4, ![32, 512, 5, 64]⟩
abbrev S1x1x5x64 : Shape := ⟨4, ![1, 1, 5, 64]⟩
abbrev S32x512x64 : Shape := ⟨3, ![32, 512, 64]⟩

abbrev nBuf : Space → Nat
  | .hbm => 96
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S9x64, .f32⟩
  | .hbm, ⟨2, _⟩ => ⟨S9x64, .f32⟩
  | .hbm, ⟨3, _⟩ => ⟨S5x64, .f32⟩
  | .hbm, ⟨4, _⟩ => ⟨S9, .f32⟩
  | .hbm, ⟨5, _⟩ => ⟨S5, .f32⟩
  | .hbm, ⟨6, _⟩ => ⟨S32x512x1, .f32⟩
  | .hbm, ⟨7, _⟩ => ⟨S1x1x5, .f32⟩
  | .hbm, ⟨8, _⟩ => ⟨S32x512x5, .f32⟩
  | .hbm, ⟨9, _⟩ => ⟨S32x512x5, .f32⟩
  | .hbm, ⟨10, _⟩ => ⟨S32x512x5, .f32⟩
  | .hbm, ⟨11, _⟩ => ⟨S32x512x5, .f32⟩
  | .hbm, ⟨12, _⟩ => ⟨S_, .f32⟩
  | .hbm, ⟨13, _⟩ => ⟨S32x512x5, .f32⟩
  | .hbm, ⟨14, _⟩ => ⟨S32x512x5, .f32⟩
  | .hbm, ⟨15, _⟩ => ⟨S32x512x5, .f32⟩
  | .hbm, ⟨16, _⟩ => ⟨S_, .f32⟩
  | .hbm, ⟨17, _⟩ => ⟨S32x512x5, .f32⟩
  | .hbm, ⟨18, _⟩ => ⟨S32x512x5, .f32⟩
  | .hbm, ⟨19, _⟩ => ⟨S_, .f32⟩
  | .hbm, ⟨20, _⟩ => ⟨S32x512x5, .f32⟩
  | .hbm, ⟨21, _⟩ => ⟨S32x512x5, .f32⟩
  | .hbm, ⟨22, _⟩ => ⟨S_, .f32⟩
  | .hbm, ⟨23, _⟩ => ⟨S32x512, .f32⟩
  | .hbm, ⟨24, _⟩ => ⟨S32x512x1, .f32⟩
  | .hbm, ⟨25, _⟩ => ⟨S32x512x5, .f32⟩
  | .hbm, ⟨26, _⟩ => ⟨S32x512x5, .f32⟩
  | .hbm, ⟨27, _⟩ => ⟨S32x512x5, .f32⟩
  | .hbm, ⟨28, _⟩ => ⟨S32x512x5x1, .f32⟩
  | .hbm, ⟨29, _⟩ => ⟨S1x1x1x9, .f32⟩
  | .hbm, ⟨30, _⟩ => ⟨S32x512x5x9, .f32⟩
  | .hbm, ⟨31, _⟩ => ⟨S32x512x5x9, .f32⟩
  | .hbm, ⟨32, _⟩ => ⟨S32x512x5x9, .f32⟩
  | .hbm, ⟨33, _⟩ => ⟨S_, .f32⟩
  | .hbm, ⟨34, _⟩ => ⟨S32x512x5x9, .f32⟩
  | .hbm, ⟨35, _⟩ => ⟨S32x512x5x9, .f32⟩
  | .hbm, ⟨36, _⟩ => ⟨S32x512x5x9, .f32⟩
  | .hbm, ⟨37, _⟩ => ⟨S32x512x5x9, .f32⟩
  | .hbm, ⟨38, _⟩ => ⟨S_, .f32⟩
  | .hbm, ⟨39, _⟩ => ⟨S32x512x5x9, .f32⟩
  | .hbm, ⟨40, _⟩ => ⟨S32x512x5x9, .f32⟩
  | .hbm, ⟨41, _⟩ => ⟨S_, .f32⟩
  | .hbm, ⟨42, _⟩ => ⟨S32x512x5x9, .f32⟩
  | .hbm, ⟨43, _⟩ => ⟨S32x512x5x9, .f32⟩
  | .hbm, ⟨44, _⟩ => ⟨S_, .f32⟩
  | .hbm, ⟨45, _⟩ => ⟨S32x512x5, .f32⟩
  | .hbm, ⟨46, _⟩ => ⟨S32x512x5x1, .f32⟩
  | .hbm, ⟨47, _⟩ => ⟨S32x512x5x9, .f32⟩
  | .hbm, ⟨48, _⟩ => ⟨S32x512x5x9, .f32⟩
  | .hbm, ⟨49, _⟩ => ⟨S32x512x5x1x1, .f32⟩
  | .hbm, ⟨50, _⟩ => ⟨S1x1x1x9x64, .f32⟩
  | .hbm, ⟨51, _⟩ => ⟨S32x512x5x9x64, .f32⟩
  | .hbm, ⟨52, _⟩ => ⟨S32x512x5x9x64, .f32⟩
  | .hbm, ⟨53, _⟩ => ⟨S32x512x5x9x64, .f32⟩
  | .hbm, ⟨54, _⟩ => ⟨S9x1, .f32⟩
  | .hbm, ⟨55, _⟩ => ⟨S9x64, .f32⟩
  | .hbm, ⟨56, _⟩ => ⟨S9x64, .f32⟩
  | .hbm, ⟨57, _⟩ => ⟨S1x1x1x9x64, .f32⟩
  | .hbm, ⟨58, _⟩ => ⟨S32x512x5x9x64, .f32⟩
  | .hbm, ⟨59, _⟩ => ⟨S32x512x5x9x64, .f32⟩
  | .hbm, ⟨60, _⟩ => ⟨S_, .f32⟩
  | .hbm, ⟨61, _⟩ => ⟨S32x512x5x9, .f32⟩
  | .hbm, ⟨62, _⟩ => ⟨S32x512x5x9x1, .f32⟩
  | .hbm, ⟨63, _⟩ => ⟨S_, .f32⟩
  | .hbm, ⟨64, _⟩ => ⟨S32x512x5x9x1, .f32⟩
  | .hbm, ⟨65, _⟩ => ⟨S32x512x5x9x1, .f32⟩
  | .hbm, ⟨66, _⟩ => ⟨S32x512x5x9x64, .f32⟩
  | .hbm, ⟨67, _⟩ => ⟨S32x512x5x9x64, .f32⟩
  | .hbm, ⟨68, _⟩ => ⟨S32x512x5x9x64, .f32⟩
  | .hbm, ⟨69, _⟩ => ⟨S_, .f32⟩
  | .hbm, ⟨70, _⟩ => ⟨S32x512x5x9, .f32⟩
  | .hbm, ⟨71, _⟩ => ⟨S32x512x5x9x1, .f32⟩
  | .hbm, ⟨72, _⟩ => ⟨S_, .f32⟩
  | .hbm, ⟨73, _⟩ => ⟨S32x512x5x9x1, .f32⟩
  | .hbm, ⟨74, _⟩ => ⟨S32x512x5x9x1, .f32⟩
  | .hbm, ⟨75, _⟩ => ⟨S32x512x5x9x64, .f32⟩
  | .hbm, ⟨76, _⟩ => ⟨S32x512x5x9x64, .f32⟩
  | .hbm, ⟨77, _⟩ => ⟨S_, .f32⟩
  | .hbm, ⟨78, _⟩ => ⟨S32x512x5x9x1, .f32⟩
  | .hbm, ⟨79, _⟩ => ⟨S32x512x5x9x1, .f32⟩
  | .hbm, ⟨80, _⟩ => ⟨S32x512x5x9x1, .f32⟩
  | .hbm, ⟨81, _⟩ => ⟨S32x512x5x9x64, .f32⟩
  | .hbm, ⟨82, _⟩ => ⟨S32x512x5x9x64, .f32⟩
  | .hbm, ⟨83, _⟩ => ⟨S32x512x5x9x1, .f32⟩
  | .hbm, ⟨84, _⟩ => ⟨S32x512x5x9x64, .f32⟩
  | .hbm, ⟨85, _⟩ => ⟨S32x512x5x9x64, .f32⟩
  | .hbm, ⟨86, _⟩ => ⟨S_, .f32⟩
  | .hbm, ⟨87, _⟩ => ⟨S32x512x5x64, .f32⟩
  | .hbm, ⟨88, _⟩ => ⟨S1x1x5x64, .f32⟩
  | .hbm, ⟨89, _⟩ => ⟨S32x512x5x64, .f32⟩
  | .hbm, ⟨90, _⟩ => ⟨S32x512x5x64, .f32⟩
  | .hbm, ⟨91, _⟩ => ⟨S32x512x5x1, .f32⟩
  | .hbm, ⟨92, _⟩ => ⟨S32x512x5x64, .f32⟩
  | .hbm, ⟨93, _⟩ => ⟨S32x512x5x64, .f32⟩
  | .hbm, ⟨94, _⟩ => ⟨S_, .f32⟩
  | .hbm, ⟨95, _⟩ => ⟨S32x512x64, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩

abbrev nD : Nat := 1
abbrev τ : Topo := Topo.v7x

variable {F : FTy → Type} [FloatOps F]

class Facts₀ : Prop where
  bcast_S32x512_S32x512x1_0_1 : S32x512.BroadcastsInDim S32x512x1 (![0, 1] : Fin 2 → Fin S32x512x1.rank)
  bcast_S5_S1x1x5_2 : S5.BroadcastsInDim S1x1x5 (![2] : Fin 1 → Fin S1x1x5.rank)
  bcast_S32x512x1_S32x512x5_0_1_2 : S32x512x1.BroadcastsInDim S32x512x5 (![0, 1, 2] : Fin 3 → Fin S32x512x5.rank)
  bcast_S1x1x5_S32x512x5_0_1_2 : S1x1x5.BroadcastsInDim S32x512x5 (![0, 1, 2] : Fin 3 → Fin S32x512x5.rank)
  bcast_S_S32x512x5 : S_.BroadcastsInDim S32x512x5 (![] : Fin 0 → Fin S32x512x5.rank)
  reducesTo_S32x512x5_S32x512_d2 : S32x512x5.ReducesTo [2] S32x512
  h_S_ : 0 < S_.numel
  bcast_S32x512x5_S32x512x5x1_0_1_2 : S32x512x5.BroadcastsInDim S32x512x5x1 (![0, 1, 2] : Fin 3 → Fin S32x512x5x1.rank)
  bcast_S9_S1x1x1x9_3 : S9.BroadcastsInDim S1x1x1x9 (![3] : Fin 1 → Fin S1x1x1x9.rank)
  bcast_S32x512x5x1_S32x512x5x9_0_1_2_3 : S32x512x5x1.BroadcastsInDim S32x512x5x9 (![0, 1, 2, 3] : Fin 4 → Fin S32x512x5x9.rank)
  bcast_S1x1x1x9_S32x512x5x9_0_1_2_3 : S1x1x1x9.BroadcastsInDim S32x512x5x9 (![0, 1, 2, 3] : Fin 4 → Fin S32x512x5x9.rank)
  bcast_S_S32x512x5x9 : S_.BroadcastsInDim S32x512x5x9 (![] : Fin 0 → Fin S32x512x5x9.rank)
  reducesTo_S32x512x5x9_S32x512x5_d3 : S32x512x5x9.ReducesTo [3] S32x512x5
  bcast_S32x512x5_S32x512x5x1x1_0_1_2 : S32x512x5.BroadcastsInDim S32x512x5x1x1 (![0, 1, 2] : Fin 3 → Fin S32x512x5x1x1.rank)
  bcast_S9x64_S1x1x1x9x64_3_4 : S9x64.BroadcastsInDim S1x1x1x9x64 (![3, 4] : Fin 2 → Fin S1x1x1x9x64.rank)
  bcast_S32x512x5x1x1_S32x512x5x9x64_0_1_2_3_4 : S32x512x5x1x1.BroadcastsInDim S32x512x5x9x64 (![0, 1, 2, 3, 4] : Fin 5 → Fin S32x512x5x9x64.rank)
  bcast_S1x1x1x9x64_S32x512x5x9x64_0_1_2_3_4 : S1x1x1x9x64.BroadcastsInDim S32x512x5x9x64 (![0, 1, 2, 3, 4] : Fin 5 → Fin S32x512x5x9x64.rank)
  bcast_S9_S9x1_0 : S9.BroadcastsInDim S9x1 (![0] : Fin 1 → Fin S9x1.rank)
  bcast_S9x1_S9x64_0_1 : S9x1.BroadcastsInDim S9x64 (![0, 1] : Fin 2 → Fin S9x64.rank)
  reducesTo_S32x512x5x9x64_S32x512x5x9_d4 : S32x512x5x9x64.ReducesTo [4] S32x512x5x9
  bcast_S32x512x5x9_S32x512x5x9x1_0_1_2_3 : S32x512x5x9.BroadcastsInDim S32x512x5x9x1 (![0, 1, 2, 3] : Fin 4 → Fin S32x512x5x9x1.rank)
  bcast_S_S32x512x5x9x1 : S_.BroadcastsInDim S32x512x5x9x1 (![] : Fin 0 → Fin S32x512x5x9x1.rank)
  bcast_S32x512x5x9x1_S32x512x5x9x64_0_1_2_3_4 : S32x512x5x9x1.BroadcastsInDim S32x512x5x9x64 (![0, 1, 2, 3, 4] : Fin 5 → Fin S32x512x5x9x64.rank)
  reducesTo_S32x512x5x9x64_S32x512x5x64_d3 : S32x512x5x9x64.ReducesTo [3] S32x512x5x64
  bcast_S5x64_S1x1x5x64_2_3 : S5x64.BroadcastsInDim S1x1x5x64 (![2, 3] : Fin 2 → Fin S1x1x5x64.rank)
  bcast_S1x1x5x64_S32x512x5x64_0_1_2_3 : S1x1x5x64.BroadcastsInDim S32x512x5x64 (![0, 1, 2, 3] : Fin 4 → Fin S32x512x5x64.rank)
  bcast_S32x512x5x1_S32x512x5x64_0_1_2_3 : S32x512x5x1.BroadcastsInDim S32x512x5x64 (![0, 1, 2, 3] : Fin 4 → Fin S32x512x5x64.rank)
  reducesTo_S32x512x5x64_S32x512x64_d2 : S32x512x5x64.ReducesTo [2] S32x512x64

variable [Facts₀]

class Facts : Prop extends Facts₀ where

variable [Facts]
-- ==== Proof.Encoder.lean ====
/-
  The multi-bias encoder at ONE input value, as a function over the extended reals.

  For an input value `x`, location centres `locs l` (l < 5), scales `sc s` (s < 9), weights `ws s k` and biases
  `bs s k` (k < 64) and location embeddings `le l k`:

    d_l       = x - locs l                                          the signed distance to centre l
    u_l       = 1 / (log (|d_l| + 1) + ε)        λ_l = u_l / Σ_l' u_l'                    the location weights
    v_{l,s}   = 1 / (|log (|d_l| / sc s + ε)| + ε)   σ_{l,s} = v_{l,s} / Σ_s' v_{l,s'}    the scale weights
    e_{l,s,k} = d_l · ws s k + bs s k · sc s                        the encoding
    μ = (Σ_k e) / 64,  var = (Σ_k (e - μ)²) / 64,  n_{l,s,k} = (e - μ) · rsqrt (var + ε')   layer norm over k
    out_k     = Σ_l (Σ_s n_{l,s,k} · σ_{l,s} + le l k) · λ_l

  Every quotient is the extended reals' `Ideal.div`, the mean divides by the literal 64, and 1, ε, ε', 64 are the
  f32 literals both programs print, kept as their words: the same word on both sides is never evaluated.
  The whole result array is this function of the argument arrays read at (b, t, k): `wholeArray`; the same read
  through the row-major flattening of (b, t) to r = 512·b + t is `flatArray`.
-/
import Idealize.ShloMosaic.PureOps.Ideal
import Idealize.ShloMosaic.PureOps.Ideal.Laws
import Idealize.ShloMosaic.Lib.ValueIdx

noncomputable section

namespace Cert.Encoder

open Idealize.ShloMosaic Idealize.ShloMosaic.ValueIdx

/-- The f32 literal 1.0. -/
def one : EReal := Ideal.ofBits .f32 0x3F800000#32
/-- The f32 literal nearest 1e-6, added under both logarithms' reciprocals. -/
def eps : EReal := Ideal.ofBits .f32 0x358637BD#32
/-- The f32 literal 64.0, the channel count both means divide by. -/
def width : EReal := Ideal.ofBits .f32 0x42800000#32
/-- The f32 literal nearest 1e-5, added to the variance. -/
def lnEps : EReal := Ideal.ofBits .f32 0x3727C5AC#32

/-- The absolute value on the extended reals, as the ideal instance reads `absf`. -/
def mag (a : EReal) : EReal := max a (-a)

/-- The unnormalised location weight of a distance `d`: 1 / (log (|d| + 1) + ε). -/
def locNum (d : EReal) : EReal := Ideal.div one (Ideal.log (mag d + one) + eps)

/-- The location weight of centre `l`: its unnormalised weight over the sum of all five. -/
def locWeight (x : EReal) (locs : Fin 5 → EReal) (l : Fin 5) : EReal :=
  Ideal.div (locNum (x - locs l)) (∑ j : Fin 5, locNum (x - locs j))

/-- The unnormalised scale weight of a distance `d` at scale `s`: 1 / (|log (|d| / s + ε)| + ε). -/
def scaleNum (d s : EReal) : EReal := Ideal.div one (mag (Ideal.log (Ideal.div (mag d) s + eps)) + eps)

/-- The scale weight at scale index `s`: its unnormalised weight over the sum of all nine. -/
def scaleWeight (d : EReal) (sc : Fin 9 → EReal) (s : Fin 9) : EReal :=
  Ideal.div (scaleNum d (sc s)) (∑ j : Fin 9, scaleNum d (sc j))

/-- The encoding of a distance `d` at one scale `s`, channel by channel: d · w k + b k · s. -/
def enc (d s : EReal) (w b : Fin 64 → EReal) (k : Fin 64) : EReal := d * w k + b k * s

/-- The mean of a 64-channel row. -/
def mean (e : Fin 64 → EReal) : EReal := Ideal.div (∑ j : Fin 64, e j) width

/-- A row less its mean. -/
def centred (e : Fin 64 → EReal) (k : Fin 64) : EReal := e k - mean e

/-- The mean of the squares of the centred row. -/
def variance (e : Fin 64 → EReal) : EReal := Ideal.div (∑ j : Fin 64, centred e j * centred e j) width

/-- The layer-normalised row: centred, times the reciprocal square root of variance + ε'. -/
def normed (e : Fin 64 → EReal) (k : Fin 64) : EReal := centred e k * Ideal.rsqrt (variance e + lnEps)

/-- The normalised encodings of a distance `d`, weighted and summed over the nine scales. -/
def overScales (d : EReal) (sc : Fin 9 → EReal) (ws bs : Fin 9 → Fin 64 → EReal) (k : Fin 64) : EReal :=
  ∑ s : Fin 9, normed (enc d (sc s) (ws s) (bs s)) k * scaleWeight d sc s

/-- The encoder's output at channel `k` for the input value `x`: the scale sums plus the location embedding,
    weighted and summed over the five centres. -/
def out (x : EReal) (locs : Fin 5 → EReal) (sc : Fin 9 → EReal) (ws bs : Fin 9 → Fin 64 → EReal)
    (le : Fin 5 → Fin 64 → EReal) (k : Fin 64) : EReal :=
  ∑ l : Fin 5, (overScales (x - locs l) sc ws bs k + le l k) * locWeight x locs l

/-- The output at channel `k` from the small argument arrays read through their shapes' indices. -/
def outOf (x : EReal) (ws bs : (⟨2, ![9, 64]⟩ : Shape).Idx → EReal) (le : (⟨2, ![5, 64]⟩ : Shape).Idx → EReal)
    (sc : (⟨1, ![9]⟩ : Shape).Idx → EReal) (locs : (⟨1, ![5]⟩ : Shape).Idx → EReal) (k : Fin 64) : EReal :=
  out x (fun l => locs (ix1 l)) (fun s => sc (ix1 s)) (fun s j => ws (ix2 s j)) (fun s j => bs (ix2 s j))
    (fun l j => le (ix2 l j)) k

/-- The whole [32, 512, 64] result: entry (b, t, k) is the encoder's output at channel `k` for `x (b, t)`. -/
def wholeArray (x : (⟨2, ![32, 512]⟩ : Shape).Idx → EReal) (ws bs : (⟨2, ![9, 64]⟩ : Shape).Idx → EReal)
    (le : (⟨2, ![5, 64]⟩ : Shape).Idx → EReal) (sc : (⟨1, ![9]⟩ : Shape).Idx → EReal)
    (locs : (⟨1, ![5]⟩ : Shape).Idx → EReal) : (⟨3, ![32, 512, 64]⟩ : Shape).Idx → EReal :=
  fun i => outOf (x (ix2 (n0 := 32) (n1 := 512) (i 0) (i 1))) ws bs le sc locs (i 2)

/-- The same result with (b, t) flattened to one row axis: entry (r, k) of a [16384, 64] array from the [16384, 1]
    column of input values. -/
def flatArray (xcol : (⟨2, ![16384, 1]⟩ : Shape).Idx → EReal) (ws bs : (⟨2, ![9, 64]⟩ : Shape).Idx → EReal)
    (le : (⟨2, ![5, 64]⟩ : Shape).Idx → EReal) (sc : (⟨1, ![9]⟩ : Shape).Idx → EReal)
    (locs : (⟨1, ![5]⟩ : Shape).Idx → EReal) : (⟨2, ![16384, 64]⟩ : Shape).Idx → EReal :=
  fun i => outOf (xcol (ix2 (n0 := 16384) (n1 := 1) (i 0) 0)) ws bs le sc locs (i 1)

end Cert.Encoder

end
-- ==== Proof.BodyValue.lean ====
/-
  What the kernel body leaves in its output block, read at one entry.

  The body runs on a block of 128 input values (a [128, 1] column) and the five small arrays whole. Entry (r, k) of
  the [128, 64] block it stores is the encoder's output at channel k for the block's r-th input value: every
  operation of the body is pointwise or a sum over one axis, so the entry depends on row r of the column only.

  The reading goes in four steps. Layout operations (shape casts that insert unit axes, broadcasts along unit axes)
  are read at an index given by its coordinates; so are the lane sums. Then each stage of the body is read at one
  entry in the encoder's vocabulary: the signed distances, the two families of normalised weights, the encodings and
  their layer norm, the two weighted sums. Last, the one store that covers the block is its payload, and the
  stages compose to the encoder's output.
-/
import proofs.«145384_j23227183137572_1_alg».proof.Proof.Encoder
import proofs.«145384_j23227183137572_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Encoder.Body

open Idealize.ShloMosaic Idealize.ShloMosaic.ValueIdx Cert.KernelIdeal Cert.KernelIdeal.Gen

/-! ## Layout operations read at an index built from coordinates

Every layout operation of the body either inserts unit axes (a shape cast that keeps the row-major position) or copies
an array along its unit axes (a broadcast). Each lemma reads one such operation at an index written by coordinates and
names the operand's index by coordinates too: the unit coordinates are forgotten or set to zero, the others kept. -/

section Layout
variable {α : Type}

/-- A coordinate below `n` is itself unless `n = 1`, when it is zero: the form a broadcast's index map takes on each
    axis, true on both branches. -/
theorem val_eq_ite {n : ℕ} (p : Fin n) : p.val = if n = 1 then 0 else p.val := by
  split
  · have := p.isLt; omega
  · rfl

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[a]` viewed as `[1, 1, a]` reads, at `(u, w, i)`, the vector at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A vector `[a]` viewed as `[1, 1, a, 1]` reads, at `(u, w, i, z)`, the vector at `i`. -/
theorem shapeCast_a_11a1_apply {a : ℕ} (x : (⟨1, ![a]⟩ : Shape).Idx → α)
    (h : (⟨1, ![a]⟩ : Shape).ShapeCasts ⟨4, ![1, 1, a, 1]⟩) (u w : Fin 1) (i : Fin a) (z : Fin 1) :
    shapeCast ⟨4, ![1, 1, a, 1]⟩ x h (ix4 u w i z) = x (ix1 i) :=
  shapeCast_apply x h _ _ (by
    have hu : u.val = 0 := by omega
    have hw : w.val = 0 := by omega
    have hz : z.val = 0 := by omega
    rw [Shape.rowMajor_val_four, Shape.rowMajor_val_one]
    show i.val = ((u.val * 1 + w.val) * a + i.val) * 1 + z.val
    simp only [hu, hw, hz, Nat.zero_mul, Nat.zero_add, Nat.mul_one, Nat.add_zero])

/-- A matrix `[a, b]` given a trailing unit axis reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix `[a, b]` given two trailing unit axes reads, at `(i, j, u, w)`, the matrix at `(i, j)`. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u w : Fin 1) :
    shapeCast ⟨4, ![a, b, 1, 1]⟩ x h (ix4 i j u w) = x (ix2 i j) :=
  shapeCast_apply x h _ _ (by
    have hu : u.val = 0 := by omega
    have hw : w.val = 0 := by omega
    rw [Shape.rowMajor_val_four, Shape.rowMajor_val_two]
    show i.val * b + j.val = ((i.val * b + j.val) * 1 + u.val) * 1 + w.val
    simp only [hu, hw, Nat.mul_one, Nat.add_zero])

/-- A matrix `[a, b]` given two leading unit axes reads, at `(u, w, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- A rank-3 array `[a, b, c]` given a trailing unit axis reads, at `(i, j, k, u)`, the array at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- A column `[a, 1]` copied along its unit axis reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => exact val_eq_ite p
  | ⟨1, _⟩ => rfl

/-- An `[a, b, 1]` array copied along its unit axis reads, at `(p, q, c)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ => exact val_eq_ite p
  | ⟨1, _⟩ => exact val_eq_ite q
  | ⟨2, _⟩ => rfl

/-- A `[1, 1, c]` array copied along its two unit axes reads, at `(p, q, k)`, the array at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ => exact val_eq_ite k

/-- A `[1, b, c]` array copied along its unit axis reads, at `(p, q, k)`, the array at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ => exact val_eq_ite q
  | ⟨2, _⟩ => exact val_eq_ite k

/-- An `[a, b, 1, 1]` array copied along its two unit axes reads, at `(p, q, k, l)`, the array at `(p, q, 0, 0)`. -/
theorem broadcastTo_ab11_abcd_apply {a b c d : ℕ} (v : (⟨4, ![a, b, 1, 1]⟩ : Shape).Idx → α)
    (h : (⟨4, ![a, b, 1, 1]⟩ : Shape).Broadcasts ⟨4, ![a, b, c, d]⟩) (p : Fin a) (q : Fin b) (k : Fin c) (l : Fin d) :
    broadcastTo ⟨4, ![a, b, c, d]⟩ v h (ix4 p q k l) = v (ix4 p q (0 : Fin 1) (0 : Fin 1)) := by
  refine broadcastTo_apply v h (ix4 p q k l) (ix4 p q (0 : Fin 1) (0 : Fin 1)) fun ax => ?_
  match ax with
  | ⟨0, _⟩ => exact val_eq_ite p
  | ⟨1, _⟩ => exact val_eq_ite q
  | ⟨2, _⟩ => rfl
  | ⟨3, _⟩ => rfl

/-- A `[1, 1, c, d]` array copied along its two unit axes reads, at `(p, q, k, l)`, the array at `(0, 0, k, l)`. -/
theorem broadcastTo_11cd_abcd_apply {a b c d : ℕ} (v : (⟨4, ![1, 1, c, d]⟩ : Shape).Idx → α)
    (h : (⟨4, ![1, 1, c, d]⟩ : Shape).Broadcasts ⟨4, ![a, b, c, d]⟩) (p : Fin a) (q : Fin b) (k : Fin c) (l : Fin d) :
    broadcastTo ⟨4, ![a, b, c, d]⟩ v h (ix4 p q k l) = v (ix4 (0 : Fin 1) (0 : Fin 1) k l) := by
  refine broadcastTo_apply v h (ix4 p q k l) (ix4 (0 : Fin 1) (0 : Fin 1) k l) fun ax => ?_
  match ax with
  | ⟨0, _⟩ => rfl
  | ⟨1, _⟩ => rfl
  | ⟨2, _⟩ => exact val_eq_ite k
  | ⟨3, _⟩ => exact val_eq_ite l

/-- A `[1, 1, c, 1]` array copied along its last axis reads, at `(u, w, k, l)`, the array at `(0, 0, k, 0)`. -/
theorem broadcastTo_11c1_11cd_apply {c d : ℕ} (v : (⟨4, ![1, 1, c, 1]⟩ : Shape).Idx → α)
    (h : (⟨4, ![1, 1, c, 1]⟩ : Shape).Broadcasts ⟨4, ![1, 1, c, d]⟩) (u w : Fin 1) (k : Fin c) (l : Fin d) :
    broadcastTo ⟨4, ![1, 1, c, d]⟩ v h (ix4 u w k l) = v (ix4 (0 : Fin 1) (0 : Fin 1) k (0 : Fin 1)) := by
  refine broadcastTo_apply v h (ix4 u w k l) (ix4 (0 : Fin 1) (0 : Fin 1) k (0 : Fin 1)) fun ax => ?_
  match ax with
  | ⟨0, _⟩ => rfl
  | ⟨1, _⟩ => rfl
  | ⟨2, _⟩ => exact val_eq_ite k
  | ⟨3, _⟩ => rfl

/-- An `[a, b, c, 1]` array copied along its unit axis reads, at `(p, q, k, l)`, the array at `(p, q, k, 0)`. -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (k : Fin c) (l : Fin d) :
    broadcastTo ⟨4, ![a, b, c, d]⟩ v h (ix4 p q k l) = v (ix4 p q k (0 : Fin 1)) := by
  refine broadcastTo_apply v h (ix4 p q k l) (ix4 p q k (0 : Fin 1)) fun ax => ?_
  match ax with
  | ⟨0, _⟩ => exact val_eq_ite p
  | ⟨1, _⟩ => exact val_eq_ite q
  | ⟨2, _⟩ => exact val_eq_ite k
  | ⟨3, _⟩ => rfl

end Layout

/-! ## A sum over one axis read at an index built from coordinates

A lane sum over one axis reads, at an index of the result, the sum of the source over that axis's coordinates with the
result's coordinates kept in their places. -/

section Sums

/-- A matrix summed along its rows: `[a, b]` over axis 1, at `p`. -/
theorem sum_ab_axis1_apply {a b : ℕ} (v : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ v acc h hφ hacc (ix1 p) = ∑ l : Fin b, v (ix2 p l) := by
  refine (Ideal.multiReduction_add_single v acc h hφ hacc (ix1 p)).trans ?_
  show ∑ l : Fin b, v (h.lift (ix1 p) l) = ∑ l : Fin b, v (ix2 p l)
  exact Finset.sum_congr rfl fun l _ => congrArg v (funext fun ax => Fin.ext (by
    match ax with | ⟨0, _⟩ => rfl | ⟨1, _⟩ => rfl))

/-- A rank-3 array summed along its last axis: `[a, b, c]` over axis 2, at `(p, q)`. -/
theorem sum_abc_axis2_apply {a b c : ℕ} (v : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ v acc h hφ hacc (ix2 p q) = ∑ l : Fin c, v (ix3 p q l) := by
  refine (Ideal.multiReduction_add_single v acc h hφ hacc (ix2 p q)).trans ?_
  show ∑ l : Fin c, v (h.lift (ix2 p q) l) = ∑ l : Fin c, v (ix3 p q l)
  exact Finset.sum_congr rfl fun l _ => congrArg v (funext fun ax => Fin.ext (by
    match ax with | ⟨0, _⟩ => rfl | ⟨1, _⟩ => rfl | ⟨2, _⟩ => rfl))

/-- A rank-3 array summed along its middle axis: `[a, b, c]` over axis 1, at `(p, k)`. -/
theorem sum_abc_axis1_apply {a b c : ℕ} (v : FVec Ideal ⟨3, ![a, b, c]⟩ .f32) (acc : BitVec FTy.f32.bits)
    (h : (⟨3, ![a, b, c]⟩ : Shape).Reduces [1] ⟨2, ![a, c]⟩) (hφ : FKind.Formats .f32)
    (hacc : acc = FKind.add.neutral .f32 hφ) (p : Fin a) (k : Fin c) :
    multiReduction .add [1] ⟨2, ![a, c]⟩ v acc h hφ hacc (ix2 p k) = ∑ l : Fin b, v (ix3 p l k) := by
  refine (Ideal.multiReduction_add_single v acc h hφ hacc (ix2 p k)).trans ?_
  show ∑ l : Fin b, v (h.lift (ix2 p k) l) = ∑ l : Fin b, v (ix3 p l k)
  exact Finset.sum_congr rfl fun l _ => congrArg v (funext fun ax => Fin.ext (by
    match ax with | ⟨0, _⟩ => rfl | ⟨1, _⟩ => rfl | ⟨2, _⟩ => rfl))

/-- A rank-4 array summed along its last axis: `[a, b, c, d]` over axis 3, at `(p, q, k)`. -/
theorem sum_abcd_axis3_apply {a b c d : ℕ} (v : FVec Ideal ⟨4, ![a, b, c, d]⟩ .f32) (acc : BitVec FTy.f32.bits)
    (h : (⟨4, ![a, b, c, d]⟩ : Shape).Reduces [3] ⟨3, ![a, b, c]⟩) (hφ : FKind.Formats .f32)
    (hacc : acc = FKind.add.neutral .f32 hφ) (p : Fin a) (q : Fin b) (k : Fin c) :
    multiReduction .add [3] ⟨3, ![a, b, c]⟩ v acc h hφ hacc (ix3 p q k) = ∑ l : Fin d, v (ix4 p q k l) := by
  refine (Ideal.multiReduction_add_single v acc h hφ hacc (ix3 p q k)).trans ?_
  show ∑ l : Fin d, v (h.lift (ix3 p q k) l) = ∑ l : Fin d, v (ix4 p q k l)
  exact Finset.sum_congr rfl fun l _ => congrArg v (funext fun ax => Fin.ext (by
    match ax with | ⟨0, _⟩ => rfl | ⟨1, _⟩ => rfl | ⟨2, _⟩ => rfl | ⟨3, _⟩ => rfl))

/-- A rank-4 array summed along its third axis: `[a, b, c, d]` over axis 2, at `(p, q, m)`. -/
theorem sum_abcd_axis2_apply {a b c d : ℕ} (v : FVec Ideal ⟨4, ![a, b, c, d]⟩ .f32) (acc : BitVec FTy.f32.bits)
    (h : (⟨4, ![a, b, c, d]⟩ : Shape).Reduces [2] ⟨3, ![a, b, d]⟩) (hφ : FKind.Formats .f32)
    (hacc : acc = FKind.add.neutral .f32 hφ) (p : Fin a) (q : Fin b) (m : Fin d) :
    multiReduction .add [2] ⟨3, ![a, b, d]⟩ v acc h hφ hacc (ix3 p q m) = ∑ l : Fin c, v (ix4 p q l m) := by
  refine (Ideal.multiReduction_add_single v acc h hφ hacc (ix3 p q m)).trans ?_
  show ∑ l : Fin c, v (h.lift (ix3 p q m) l) = ∑ l : Fin c, v (ix4 p q l m)
  exact Finset.sum_congr rfl fun l _ => congrArg v (funext fun ax => Fin.ext (by
    match ax with | ⟨0, _⟩ => rfl | ⟨1, _⟩ => rfl | ⟨2, _⟩ => rfl | ⟨3, _⟩ => rfl))

end Sums

/-! ## The body's stages, entry by entry

Each payload is read at one entry in the encoder's vocabulary. The pointwise operations read through by definition;
the layout operations and the sums are read by the lemmas above. A stage that divides an array by its own sum along
an axis (the two weightings) is stated once for any array in the numerator's place. -/

section Stages

/-- The signed distances: entry `(r, l)` is the block's `r`-th input value less centre `l`. -/
theorem pay2_apply (v0 : Vec Ideal S128x1 .f32) (v2 : Vec Ideal S5 .f32) (r : Fin 128) (l : Fin 5) :
    k0_pay2 v0 v2 (ix2 r l) = v0 (ix2 r (0 : Fin 1)) - v2 (ix1 l) := by
  unfold k0_pay2
  refine (subf_apply _ _ _).trans (congrArg₂ (· - ·) ?_ ?_)
  · refine (broadcastTo_a1_ab_apply _ _ r l).trans ?_
    rw [shapeCast_self]
  · exact (broadcastTo_1b_ab_apply _ _ r l).trans (shapeCast_a_1a_apply _ _ 0 l)

/-- The unnormalised location weight is pointwise in the distances. -/
theorem locNum_apply (D : FVec Ideal S128x5 .f32) (i : S128x5.Idx) :
    divf (broadcast S128x5 (Scalar.ofBits (F := Ideal) .f32 0x3F800000#32))
        (addf (log (addf (absf D) (broadcast S128x5 (Scalar.ofBits (F := Ideal) .f32 0x3F800000#32))))
          (broadcast S128x5 (Scalar.ofBits (F := Ideal) .f32 0x358637BD#32))) i
      = locNum (D i) := rfl

/-- A `[128, 5]` array over its own row sums, the sum taken along axis 1, kept as a column and copied back along
    the rows: entry `(r, l)` is the entry over the sum of row `r`. -/
theorem overRowSum2_apply (N : FVec Ideal S128x5 .f32) (hred : S128x5.Reduces [1] S128) (hφ : FKind.Formats .f32)
    (hacc : (0x00000000#32 : BitVec FTy.f32.bits) = FKind.add.neutral .f32 hφ) (hsc : S128.ShapeCasts S128x1)
    (hbc : S128x1.Broadcasts S128x5) (r : Fin 128) (l : Fin 5) :
    divf N (broadcastTo S128x5 (shapeCast S128x1 (multiReduction .add [1] S128 N 0x00000000#32 hred hφ hacc) hsc) hbc)
        (ix2 r l)
      = Ideal.div (N (ix2 r l)) (∑ j : Fin 5, N (ix2 r j)) := by
  refine (divf_apply _ _ _).trans (congrArg (Ideal.div (N (ix2 r l))) ?_)
  refine (broadcastTo_a1_ab_apply _ hbc r l).trans ?_
  refine (shapeCast_a_a1_apply _ hsc r 0).trans ?_
  exact sum_ab_axis1_apply N _ hred hφ hacc r

/-- The location weights: entry `(r, l)` is the weight of centre `l` for the block's `r`-th input value. -/
theorem pay3_apply (v0 : Vec Ideal S128x1 .f32) (v2 : Vec Ideal S5 .f32) (r : Fin 128) (l : Fin 5) :
    k0_pay3 v0 v2 (ix2 r l) = locWeight (v0 (ix2 r (0 : Fin 1))) (fun j => v2 (ix1 j)) l := by
  unfold k0_pay3
  refine (overRowSum2_apply _ _ _ _ _ _ r l).trans ?_
  unfold locWeight
  refine congrArg₂ Ideal.div ?_ (Finset.sum_congr rfl fun j _ => ?_)
  · exact (locNum_apply _ _).trans (congrArg locNum (pay2_apply v0 v2 r l))
  · exact (locNum_apply _ _).trans (congrArg locNum (pay2_apply v0 v2 r j))

/-- The unnormalised scale weight is pointwise in the magnitudes `A` and the scales `B`, both already laid out
    over `[128, 5, 9]`. -/
theorem scaleNum_pointwise (A B : FVec Ideal S128x5x9 .f32) (i : S128x5x9.Idx) :
    divf (broadcast S128x5x9 (Scalar.ofBits (F := Ideal) .f32 0x3F800000#32))
        (addf (absf (log (addf (divf A B) (broadcast S128x5x9 (Scalar.ofBits (F := Ideal) .f32 0x358637BD#32)))))
          (broadcast S128x5x9 (Scalar.ofBits (F := Ideal) .f32 0x358637BD#32))) i
      = Ideal.div one (mag (Ideal.log (Ideal.div (A i) (B i) + eps)) + eps) := rfl

/-- The unnormalised scale weights from the distances `D` and the scales `sc`: entry `(r, l, j)` is that of distance
    `(r, l)` at scale `j`. -/
theorem scaleNum_apply (D : FVec Ideal S128x5 .f32) (sc : Vec Ideal S9 .f32) (h1 : S9.ShapeCasts S1x1x9)
    (h2 : S128x5.ShapeCasts S128x5x1) (h3 : S128x5x1.Broadcasts S128x5x9) (h4 : S1x1x9.Broadcasts S128x5x9)
    (r : Fin 128) (l : Fin 5) (j : Fin 9) :
    divf (broadcast S128x5x9 (Scalar.ofBits (F := Ideal) .f32 0x3F800000#32))
        (addf (absf (log (addf (divf (broadcastTo S128x5x9 (shapeCast S128x5x1 (absf D) h2) h3)
            (broadcastTo S128x5x9 (shapeCast S1x1x9 sc h1) h4))
          (broadcast S128x5x9 (Scalar.ofBits (F := Ideal) .f32 0x358637BD#32)))))
          (broadcast S128x5x9 (Scalar.ofBits (F := Ideal) .f32 0x358637BD#32))) (ix3 r l j)
      = scaleNum (D (ix2 r l)) (sc (ix1 j)) := by
  have hA : broadcastTo S128x5x9 (shapeCast S128x5x1 (absf D) h2) h3 (ix3 r l j) = mag (D (ix2 r l)) :=
    (broadcastTo_ab1_abc_apply _ h3 r l j).trans (shapeCast_ab_ab1_apply _ h2 r l 0)
  have hB : broadcastTo S128x5x9 (shapeCast S1x1x9 sc h1) h4 (ix3 r l j) = sc (ix1 j) :=
    (broadcastTo_11c_abc_apply _ h4 r l j).trans (shapeCast_a_11a_apply _ h1 0 0 j)
  refine (scaleNum_pointwise _ _ _).trans ?_
  exact congrArg₂ (fun a b => Ideal.div one (mag (Ideal.log (Ideal.div a b + eps)) + eps)) hA hB

/-- A `[128, 5, 9]` array over its own sums along the last axis, the sum kept as a unit axis and copied back: entry
    `(r, l, s)` is the entry over the sum of the nine entries `(r, l, ·)`. -/
theorem overRowSum3_apply (N : FVec Ideal S128x5x9 .f32) (hred : S128x5x9.Reduces [2] S128x5) (hφ : FKind.Formats .f32)
    (hacc : (0x00000000#32 : BitVec FTy.f32.bits) = FKind.add.neutral .f32 hφ) (hsc : S128x5.ShapeCasts S128x5x1)
    (hbc : S128x5x1.Broadcasts S128x5x9) (r : Fin 128) (l : Fin 5) (s : Fin 9) :
    divf N (broadcastTo S128x5x9 (shapeCast S128x5x1 (multiReduction .add [2] S128x5 N 0x00000000#32 hred hφ hacc) hsc)
        hbc) (ix3 r l s)
      = Ideal.div (N (ix3 r l s)) (∑ j : Fin 9, N (ix3 r l j)) := by
  refine (divf_apply _ _ _).trans (congrArg (Ideal.div (N (ix3 r l s))) ?_)
  refine (broadcastTo_ab1_abc_apply _ hbc r l s).trans ?_
  refine (shapeCast_ab_ab1_apply _ hsc r l 0).trans ?_
  exact sum_abc_axis2_apply N _ hred hφ hacc r l

/-- The scale weights: entry `(r, l, s)` is the weight of scale `s` for the distance of the `r`-th input value to
    centre `l`. -/
theorem pay4_apply (v0 : Vec Ideal S128x1 .f32) (v2 : Vec Ideal S5 .f32) (v19 : Vec Ideal S9 .f32)
    (r : Fin 128) (l : Fin 5) (s : Fin 9) :
    k0_pay4 v0 v2 v19 (ix3 r l s)
      = scaleWeight (v0 (ix2 r (0 : Fin 1)) - v2 (ix1 l)) (fun j => v19 (ix1 j)) s := by
  unfold k0_pay4
  refine (overRowSum3_apply _ _ _ _ _ _ r l s).trans ?_
  unfold scaleWeight
  refine congrArg₂ Ideal.div ?_ (Finset.sum_congr rfl fun j _ => ?_)
  · exact (scaleNum_apply _ _ _ _ _ _ r l s).trans
      (congrArg (fun d => scaleNum d (v19 (ix1 s))) (pay2_apply v0 v2 r l))
  · exact (scaleNum_apply _ _ _ _ _ _ r l j).trans
      (congrArg (fun d => scaleNum d (v19 (ix1 j))) (pay2_apply v0 v2 r l))

/-- The weights as the body lays them out: entry `(0, 0, s, j)` is weight `(s, j)`. -/
theorem pay5_apply (v38 : Vec Ideal S9x64 .f32) (s : Fin 9) (j : Fin 64) :
    k0_pay5 v38 (ix4 (0 : Fin 1) (0 : Fin 1) s j) = v38 (ix2 s j) := by
  unfold k0_pay5
  exact shapeCast_ab_11ab_apply _ _ 0 0 s j

/-- The biases likewise. -/
theorem pay6_apply (v40 : Vec Ideal S9x64 .f32) (s : Fin 9) (j : Fin 64) :
    k0_pay6 v40 (ix4 (0 : Fin 1) (0 : Fin 1) s j) = v40 (ix2 s j) := by
  unfold k0_pay6
  exact shapeCast_ab_11ab_apply _ _ 0 0 s j

end Stages

/-! ## The layer norm and the two weighted sums

The last payload builds the `[128, 5, 9, 64]` encodings, normalises each row of 64 channels (mean, centring, mean of
squares, reciprocal square root), weights by the scale weights and sums over the scales, adds the location embedding,
weights by the location weights and sums over the centres. The normalisation is stated for any array in the
encodings' place, and its second half for any array in the centred encodings' place, so that the centred array is
read once. -/

section Norm

/-- A reciprocal square root read at an index. -/
theorem rsqrt_apply {s : Shape} {φ : FTy} (a : FVec Ideal s φ) (i : s.Idx) : rsqrt a i = Ideal.rsqrt (a i) := rfl

/-- The encodings: entry `(r, l, s, j)` is distance `(r, l)` times weight `(s, j)` plus bias `(s, j)` times scale `s`. -/
theorem enc_apply (D : FVec Ideal S128x5 .f32) (W B : FVec Ideal S1x1x9x64 .f32) (sc : Vec Ideal S9 .f32)
    (h1 : S9.ShapeCasts S1x1x9x1) (h2 : S128x5.ShapeCasts S128x5x1x1) (h3 : S128x5x1x1.Broadcasts S128x5x9x64)
    (h4 : S1x1x9x64.Broadcasts S128x5x9x64) (h5 : S1x1x9x1.Broadcasts S1x1x9x64)
    (r : Fin 128) (l : Fin 5) (s : Fin 9) (j : Fin 64) :
    addf (mulf (broadcastTo S128x5x9x64 (shapeCast S128x5x1x1 D h2) h3) (broadcastTo S128x5x9x64 W h4))
        (broadcastTo S128x5x9x64 (mulf B (broadcastTo S1x1x9x64 (shapeCast S1x1x9x1 sc h1) h5)) h4) (ix4 r l s j)
      = enc (D (ix2 r l)) (sc (ix1 s)) (fun j => W (ix4 (0 : Fin 1) (0 : Fin 1) s j))
          (fun j => B (ix4 (0 : Fin 1) (0 : Fin 1) s j)) j := by
  show _ = D (ix2 r l) * W (ix4 (0 : Fin 1) (0 : Fin 1) s j) + B (ix4 (0 : Fin 1) (0 : Fin 1) s j) * sc (ix1 s)
  refine (addf_apply _ _ _).trans (congrArg₂ (· + ·) ?_ ?_)
  · refine (mulf_apply _ _ _).trans (congrArg₂ (· * ·) ?_ ?_)
    · exact (broadcastTo_ab11_abcd_apply _ h3 r l s j).trans (shapeCast_ab_ab11_apply _ h2 r l 0 0)
    · exact broadcastTo_11cd_abcd_apply _ h4 r l s j
  · refine (broadcastTo_11cd_abcd_apply _ h4 r l s j).trans ?_
    refine (mulf_apply _ _ _).trans (congrArg (B (ix4 (0 : Fin 1) (0 : Fin 1) s j) * ·) ?_)
    exact (broadcastTo_11c1_11cd_apply _ h5 0 0 s j).trans (shapeCast_a_11a1_apply _ h1 0 0 s 0)

/-- The mean over the 64 channels, kept as a unit axis: entry `(r, l, s, 0)` is the mean of row `(r, l, s, ·)`. -/
theorem mean4_apply (E : FVec Ideal S128x5x9x64 .f32) (hred : S128x5x9x64.Reduces [3] S128x5x9)
    (hφ : FKind.Formats .f32) (hacc : (0x00000000#32 : BitVec FTy.f32.bits) = FKind.add.neutral .f32 hφ)
    (hsc : S128x5x9.ShapeCasts S128x5x9x1) (r : Fin 128) (l : Fin 5) (s : Fin 9) (u : Fin 1) :
    divf (shapeCast S128x5x9x1 (multiReduction .add [3] S128x5x9 E 0x00000000#32 hred hφ hacc) hsc)
        (broadcast S128x5x9x1 (Scalar.ofBits (F := Ideal) .f32 0x42800000#32)) (ix4 r l s u)
      = mean (fun j => E (ix4 r l s j)) := by
  show _ = Ideal.div (∑ j : Fin 64, E (ix4 r l s j)) width
  refine (divf_apply _ _ _).trans (congrArg₂ Ideal.div ?_ rfl)
  exact (shapeCast_abc_abc1_apply _ hsc r l s u).trans (sum_abcd_axis3_apply E _ hred hφ hacc r l s)

/-- The encodings less their channel means: entry `(r, l, s, j)` is the centred row `(r, l, s, ·)` at `j`. -/
theorem centre_apply (E : FVec Ideal S128x5x9x64 .f32) (hred : S128x5x9x64.Reduces [3] S128x5x9)
    (hφ : FKind.Formats .f32) (hacc : (0x00000000#32 : BitVec FTy.f32.bits) = FKind.add.neutral .f32 hφ)
    (hsc : S128x5x9.ShapeCasts S128x5x9x1) (hbc : S128x5x9x1.Broadcasts S128x5x9x64)
    (r : Fin 128) (l : Fin 5) (s : Fin 9) (j : Fin 64) :
    subf E (broadcastTo S128x5x9x64
        (divf (shapeCast S128x5x9x1 (multiReduction .add [3] S128x5x9 E 0x00000000#32 hred hφ hacc) hsc)
          (broadcast S128x5x9x1 (Scalar.ofBits (F := Ideal) .f32 0x42800000#32))) hbc) (ix4 r l s j)
      = centred (fun j => E (ix4 r l s j)) j := by
  show _ = E (ix4 r l s j) - mean (fun j => E (ix4 r l s j))
  refine (subf_apply _ _ _).trans (congrArg (E (ix4 r l s j) - ·) ?_)
  exact (broadcastTo_abc1_abcd_apply _ hbc r l s j).trans (mean4_apply E hred hφ hacc hsc r l s 0)

/-- A centred array times the reciprocal square root of its mean square plus ε': where row `(r, l, s, ·)` of `C` is
    the centred row `e`, entry `(r, l, s, k)` is the normalised row at `k`. -/
theorem normalise_apply (C : FVec Ideal S128x5x9x64 .f32) (e : Fin 64 → EReal)
    (hred : S128x5x9x64.Reduces [3] S128x5x9) (hφ : FKind.Formats .f32)
    (hacc : (0x00000000#32 : BitVec FTy.f32.bits) = FKind.add.neutral .f32 hφ)
    (hsc : S128x5x9.ShapeCasts S128x5x9x1) (hbc : S128x5x9x1.Broadcasts S128x5x9x64)
    (r : Fin 128) (l : Fin 5) (s : Fin 9) (hC : ∀ j : Fin 64, C (ix4 r l s j) = centred e j) (k : Fin 64) :
    mulf C (broadcastTo S128x5x9x64 (rsqrt (addf
        (divf (shapeCast S128x5x9x1 (multiReduction .add [3] S128x5x9 (mulf C C) 0x00000000#32 hred hφ hacc) hsc)
          (broadcast S128x5x9x1 (Scalar.ofBits (F := Ideal) .f32 0x42800000#32)))
        (broadcast S128x5x9x1 (Scalar.ofBits (F := Ideal) .f32 0x3727C5AC#32)))) hbc) (ix4 r l s k)
      = normed e k := by
  show _ = centred e k * Ideal.rsqrt (variance e + lnEps)
  refine (mulf_apply _ _ _).trans (congrArg₂ (· * ·) (hC k) ?_)
  refine (broadcastTo_abc1_abcd_apply _ hbc r l s k).trans ?_
  refine (rsqrt_apply _ _).trans (congrArg Ideal.rsqrt ?_)
  refine (addf_apply _ _ _).trans (congrArg₂ (· + ·) ?_ rfl)
  refine (mean4_apply (mulf C C) hred hφ hacc hsc r l s 0).trans ?_
  show Ideal.div (∑ j : Fin 64, C (ix4 r l s j) * C (ix4 r l s j)) width
    = Ideal.div (∑ j : Fin 64, centred e j * centred e j) width
  refine congrArg (fun a => Ideal.div a width) (Finset.sum_congr rfl fun j _ => ?_)
  rw [hC j]

/-- The last payload: entry `(r, k)` is, summed over the centres `l`, the scale-weighted sum of the normalised
    encodings plus the embedding, times the location weight. -/
theorem pay1_apply (v6 v18 : FVec Ideal S128x5 .f32) (v37 : FVec Ideal S128x5x9 .f32)
    (v39 v41 : FVec Ideal S1x1x9x64 .f32) (v42 : Vec Ideal S9 .f32) (v72 : Vec Ideal S5x64 .f32)
    (r : Fin 128) (k : Fin 64) :
    k0_pay1 v6 v18 v37 v39 v41 v42 v72 (ix2 r k)
      = ∑ l : Fin 5, (∑ s : Fin 9,
            normed (enc (v6 (ix2 r l)) (v42 (ix1 s)) (fun j => v39 (ix4 (0 : Fin 1) (0 : Fin 1) s j))
              (fun j => v41 (ix4 (0 : Fin 1) (0 : Fin 1) s j))) k * v37 (ix3 r l s)
          + v72 (ix2 l k)) * v18 (ix2 r l) := by
  unfold k0_pay1
  refine (sum_abc_axis1_apply _ _ _ _ _ r k).trans (Finset.sum_congr rfl fun l _ => ?_)
  refine (mulf_apply _ _ _).trans (congrArg₂ (· * ·) ?_ ?_)
  · refine (addf_apply _ _ _).trans (congrArg₂ (· + ·) ?_ ?_)
    · refine (sum_abcd_axis2_apply _ _ _ _ _ r l k).trans (Finset.sum_congr rfl fun s _ => ?_)
      refine (mulf_apply _ _ _).trans (congrArg₂ (· * ·) ?_ ?_)
      · refine normalise_apply _ _ _ _ _ _ _ r l s (fun j => ?_) k
        refine (centre_apply _ _ _ _ _ _ r l s j).trans ?_
        exact congrArg (fun e => centred e j) (funext fun j' => enc_apply v6 v39 v41 v42 _ _ _ _ _ r l s j')
      · exact (broadcastTo_abc1_abcd_apply _ _ r l s k).trans (shapeCast_abc_abc1_apply _ _ r l s 0)
    · exact (broadcastTo_1bc_abc_apply _ _ r l k).trans (shapeCast_ab_1ab_apply _ _ 0 l k)
  · exact (broadcastTo_ab1_abc_apply _ _ r l k).trans (shapeCast_ab_ab1_apply _ _ r l 0)

end Norm

/-! ## The stored block -/

/-- Every access of the body is at offset zero, on one axis … -/
theorem off1_zero : (![0] : Fin 1 → Nat) = fun _ => 0 := funext fun a => by fin_cases a <;> rfl

/-- … and on two. -/
theorem off2_zero : (![0, 0] : Fin 2 → Nat) = fun _ => 0 := funext fun a => by fin_cases a <;> rfl

/-- Entry (r, k) of the block the body stores is the encoder's output at channel k for the r-th input value of the
    block, over the small arrays as the body loads them (locations, scales, weights, biases, embeddings). -/
theorem block_eq (x0 : Vec Ideal S128x1 .f32) (x1 : Vec Ideal S5 .f32) (x2 : Vec Ideal S9 .f32)
    (x3 x4 : Vec Ideal S9x64 .f32) (x5 : Vec Ideal S5x64 .f32) (r : Fin 128) (k : Fin 64) :
    out0_6 (F := Ideal) x0 x1 x2 x3 x4 x5 (ix2 r k)
      = Cert.Encoder.outOf (x0 (ix2 r (0 : Fin 1))) x3 x4 x5 x2 x1 k := by
  -- the one store covers the block and every load is of a whole buffer
  unfold out0_6
  rw [View.canon_unit_zero off2_zero]
  simp only [View.ld_unit_zero (S := S128x1) off2_zero, View.ld_unit_zero (S := S5) off1_zero,
    View.ld_unit_zero (S := S9) off1_zero, View.ld_unit_zero (S := S9x64) off2_zero,
    View.ld_unit_zero (S := S5x64) off2_zero]
  -- the last payload over the earlier ones, then the earlier ones entry by entry
  refine (pay1_apply _ _ _ _ _ _ _ r k).trans ?_
  show _ = ∑ l : Fin 5, (∑ s : Fin 9,
        normed (enc (x0 (ix2 r (0 : Fin 1)) - x1 (ix1 l)) (x2 (ix1 s)) (fun j => x3 (ix2 s j)) (fun j => x4 (ix2 s j))) k
          * scaleWeight (x0 (ix2 r (0 : Fin 1)) - x1 (ix1 l)) (fun s => x2 (ix1 s)) s
      + x5 (ix2 l k)) * locWeight (x0 (ix2 r (0 : Fin 1))) (fun l => x1 (ix1 l)) l
  refine Finset.sum_congr rfl fun l _ => ?_
  rw [pay3_apply, pay2_apply]
  refine congrArg (fun a => (a + x5 (ix2 l k)) * locWeight (x0 (ix2 r (0 : Fin 1))) (fun l => x1 (ix1 l)) l)
    (Finset.sum_congr rfl fun s _ => ?_)
  rw [pay4_apply]
  simp only [pay5_apply, pay6_apply]

end Cert.Encoder.Body

end
-- ==== Proof.KernelValue.lean ====
/-
  The kernel's result array as one function of the argument arrays.

  The grid has 128 points. Point t reads rows 128·t … 128·t + 127 of the [16384, 1] column of input values (the
  [32, 512] input flattened row-major) and the five small arrays whole, and writes rows 128·t … 128·t + 127 of the
  [16384, 64] result. By the body's value, entry (r, k) of the block a point writes is the encoder's output at channel
  k for the block's r-th input value, so every block is the restriction of ONE function of the arrays, `flatArray`;
  the 128 blocks tile the result, so the result IS that function. The program then reshapes [16384, 64] to
  [32, 512, 64]: row 512·b + t becomes (b, t), and the column of input values at that row is x (b, t).
-/
import proofs.«145384_j23227183137572_1_alg».proof.Proof.Encoder
import proofs.«145384_j23227183137572_1_alg».proof.Proof.BodyValue
import proofs.«145384_j23227183137572_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Encoder.Kernel

open Cert.KernelIdeal Cert.KernelIdeal.Gen

variable (m : (ℓ : Loc nD τ sig) → Buf (Elt Ideal) ℓ) (ρ : Dev nD → PrngReg)

/-- The block index of each window at a grid point, decided over the 128 points: the column of input values and the
    result move one block of 128 rows per point; every small array's block is its whole. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry y of the block of input values at point t is row 128·t + y₀ of the column. -/
theorem xblk_apply (c : Dev nD) (t : Fin cfg0.N) (y : S128x1.Idx) (k : S16384x1.Idx)
    (hk0 : (k 0).val = 128 * t.val + (y 0).val) (hk1 : (k 1).val = (y 1).val) :
    (iblk m c 0 t : Vec Ideal S128x1 .f32) y = (V m c main_v0 : S16384x1.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 128 + 1 * (y 0).val = (k 0).val; rw [e0, hk0]; omega
  | ⟨1, _⟩ => show win0_0.index t (1 : Fin 2) * 1 + 1 * (y 1).val = (k 1).val; rw [e1, hk1]; omega

/-- Each small array's block at any point is the array itself: its one block starts at offset zero and has the
    array's extents. -/
theorem locs_blk (c : Dev nD) (t : Fin cfg0.N) :
    (iblk m c 1 t : Vec Ideal S5 .f32) = (V m c main_arg5 : S5.Idx → EReal) := by
  obtain ⟨-, -, -, -, e, -⟩ := idx_facts t
  funext y
  unfold iblk
  rw [View.read_apply]
  show V m c main_arg5 _ = V m c main_arg5 _
  congr 1
  funext a
  apply Fin.ext
  match a with
  | ⟨0, _⟩ => show win0_1.index t (0 : Fin 1) * 5 + 1 * (y 0).val = (y 0).val; rw [e]; omega

theorem scales_blk (c : Dev nD) (t : Fin cfg0.N) :
    (iblk m c 2 t : Vec Ideal S9 .f32) = (V m c main_arg4 : S9.Idx → EReal) := by
  obtain ⟨-, -, -, -, -, e, -⟩ := idx_facts t
  funext y
  unfold iblk
  rw [View.read_apply]
  show V m c main_arg4 _ = V m c main_arg4 _
  congr 1
  funext a
  apply Fin.ext
  match a with
  | ⟨0, _⟩ => show win0_2.index t (0 : Fin 1) * 9 + 1 * (y 0).val = (y 0).val; rw [e]; omega

theorem ws_blk (c : Dev nD) (t : Fin cfg0.N) :
    (iblk m c 3 t : Vec Ideal S9x64 .f32) = (V m c main_arg1 : S9x64.Idx → EReal) := by
  obtain ⟨-, -, -, -, -, -, e0, e1, -⟩ := idx_facts t
  funext y
  unfold iblk
  rw [View.read_apply]
  show V m c main_arg1 _ = V m c main_arg1 _
  congr 1
  funext a
  apply Fin.ext
  match a with
  | ⟨0, _⟩ => show win0_3.index t (0 : Fin 2) * 9 + 1 * (y 0).val = (y 0).val; rw [e0]; omega
  | ⟨1, _⟩ => show win0_3.index t (1 : Fin 2) * 64 + 1 * (y 1).val = (y 1).val; rw [e1]; omega

theorem bs_blk (c : Dev nD) (t : Fin cfg0.N) :
    (iblk m c 4 t : Vec Ideal S9x64 .f32) = (V m c main_arg2 : S9x64.Idx → EReal) := by
  obtain ⟨-, -, -, -, -, -, -, -, e0, e1, -⟩ := idx_facts t
  funext y
  unfold iblk
  rw [View.read_apply]
  show V m c main_arg2 _ = V m c main_arg2 _
  congr 1
  funext a
  apply Fin.ext
  match a with
  | ⟨0, _⟩ => show win0_4.index t (0 : Fin 2) * 9 + 1 * (y 0).val = (y 0).val; rw [e0]; omega
  | ⟨1, _⟩ => show win0_4.index t (1 : Fin 2) * 64 + 1 * (y 1).val = (y 1).val; rw [e1]; omega

theorem emb_blk (c : Dev nD) (t : Fin cfg0.N) :
    (iblk m c 5 t : Vec Ideal S5x64 .f32) = (V m c main_arg3 : S5x64.Idx → EReal) := by
  obtain ⟨-, -, -, -, -, -, -, -, -, -, e0, e1⟩ := idx_facts t
  funext y
  unfold iblk
  rw [View.read_apply]
  show V m c main_arg3 _ = V m c main_arg3 _
  congr 1
  funext a
  apply Fin.ext
  match a with
  | ⟨0, _⟩ => show win0_5.index t (0 : Fin 2) * 5 + 1 * (y 0).val = (y 0).val; rw [e0]; omega
  | ⟨1, _⟩ => show win0_5.index t (1 : Fin 2) * 64 + 1 * (y 1).val = (y 1).val; rw [e1]; omega

/-- The body's block at an index of the block's own shape: the encoder's output for the row's input value. -/
theorem block_at (x0 : Vec Ideal S128x1 .f32) (x1 : Vec Ideal S5 .f32) (x2 : Vec Ideal S9 .f32)
    (x3 x4 : Vec Ideal S9x64 .f32) (x5 : Vec Ideal S5x64 .f32) (j : S128x64.Idx) :
    out0_6 (F := Ideal) x0 x1 x2 x3 x4 x5 j
      = Cert.Encoder.outOf (x0 (ix2 (n0 := 128) (n1 := 1) (j 0) 0)) x3 x4 x5 x2 x1 (j 1) := by
  obtain ⟨r, k, rfl⟩ : ∃ (r : Fin 128) (k : Fin 64), j = ix2 r k := ⟨j 0, j 1, eq_ix2 j⟩
  exact Cert.Encoder.Body.block_eq x0 x1 x2 x3 x4 x5 r k

/-- The result as one function of the arrays the region finds: `flatArray` of the column of input values and the
    five small arrays. -/
abbrev flat (c : Dev nD) : S16384x64.Idx → EReal :=
  Cert.Encoder.flatArray (V m c main_v0) (V m c main_arg1) (V m c main_arg2) (V m c main_arg3) (V m c main_arg4)
    (V m c main_arg5)

/-- WHAT POINT t WRITES BACK is block t of that function. -/
theorem flushed_eq (c : Dev nD) (t : Fin cfg0.N) :
    (dats m 0 c).flushed 6 t = ((cfg0.win 6).blk t).view.read (Elt Ideal) (flat m c) := by
  show (cfg0.win 6).cut (grid0.coords t) ((dats m 0 c).after 6 t) = _
  rw [after0_6]
  obtain ⟨-, -, e0, e1, -⟩ := idx_facts t
  funext j
  show out0_6 (iblk m c 0 t) (iblk m c 1 t) (iblk m c 2 t) (iblk m c 3 t) (iblk m c 4 t) (iblk m c 5 t) j
    = flat m c (((cfg0.win 6).blk t).view.emb j)
  refine (block_at (iblk m c 0 t) (iblk m c 1 t) (iblk m c 2 t) (iblk m c 3 t) (iblk m c 4 t) (iblk m c 5 t) j).trans ?_
  rw [locs_blk, scales_blk, ws_blk, bs_blk, emb_blk]
  have hx : (iblk m c 0 t : Vec Ideal S128x1 .f32) (ix2 (n0 := 128) (n1 := 1) (j 0) 0)
      = (V m c main_v0 : S16384x1.Idx → EReal)
          (ix2 (n0 := 16384) (n1 := 1) ((((cfg0.win 6).blk t).view.emb j) 0) 0) :=
    xblk_apply m c t _ _
      (by show win0_6.index t (0 : Fin 2) * 128 + 1 * (j 0).val = 128 * t.val + (j 0).val; rw [e0]; omega) rfl
  have hk : ((((cfg0.win 6).blk t).view.emb j) 1 : Fin 64) = j 1 :=
    Fin.ext (by show win0_6.index t (1 : Fin 2) * 64 + 1 * (j 1).val = (j 1).val; rw [e1]; omega)
  show Cert.Encoder.outOf _ _ _ _ _ _ _ = Cert.Encoder.outOf _ _ _ _ _ _ _
  rw [hx, hk]

/-- An index of the result is in point t's block iff each coordinate is in the block's range on its axis. -/
theorem mem_blk (t : Fin cfg0.N) (i : S16384x64.Idx) :
    i ∈ ((cfg0.win 6).blk t).view.set ↔ ∀ a : Fin 2, win0_6.index t a * S128x64.size a ≤ (i a).val
      ∧ (i a).val < win0_6.index t a * S128x64.size a + S128x64.size a := by
  show i ∈ ((View.whole main_v1).slice (win0_6.rect t)).set ↔ _
  rw [View.set_slice_whole, Rect.mem_set_unit]
  exact Iff.rfl

/-- Every row of the result lies in the block of the point its row number divided by 128 names. -/
theorem cover (i : S16384x64.Idx) :
    ∃ t : Fin cfg0.N, (cfg0.win 6).flush t = true ∧ i ∈ ((cfg0.win 6).blk t).view.set := by
  have hi0 : (i 0).val < 16384 := (i 0).isLt
  have hi1 : (i 1).val < 64 := (i 1).isLt
  have hN : cfg0.N = 128 := N_0
  let t : Fin cfg0.N := ⟨(i 0).val / 128, by rw [hN]; omega⟩
  obtain ⟨-, -, e0, e1, -⟩ := idx_facts t
  refine ⟨t, flush0_6 t, ?_⟩
  rw [mem_blk]
  intro a
  have ht : t.val = (i 0).val / 128 := rfl
  match a with
  | ⟨0, _⟩ =>
    show win0_6.index t (0 : Fin 2) * 128 ≤ (i 0).val ∧ (i 0).val < win0_6.index t (0 : Fin 2) * 128 + 128
    rw [e0, ht]; omega
  | ⟨1, _⟩ =>
    show win0_6.index t (1 : Fin 2) * 64 ≤ (i 1).val ∧ (i 1).val < win0_6.index t (1 : Fin 2) * 64 + 64
    rw [e1]; omega

/-- THE RESULT ARRAY after the region: the 128 blocks tile it, so it is `flat`. -/
theorem final (c : Dev nD) : (dats m 0 c).arrAt 6 cfg0.N = flat m c :=
  (dats m 0 c).arrAt_eq_of_cover 6 (flat m c) (fun t _ => flushed_eq m c t) cover

/-- The column of input values the region finds is the [32, 512] input, reshaped. -/
theorem xcol_eq (c : Dev nD) :
    (V m c main_v0 : S16384x1.Idx → EReal)
      = shapeCast S16384x1 (m ((c : Thread nD τ).loc main_arg0) : S32x512.Idx → EReal) shapeCasts_S32x512_S16384x1 := by
  show StableHlo.after hostOps0 (fun b => m (c, b)) (Proc.devRef .tc main_v0) = _
  after_results
  rfl

/-- The program's result: the region's array reshaped to [32, 512, 64]. -/
theorem result_eq (c : Dev nD) :
    Pipeline.afterTail₀ cfgs (dats m) 0 (V0 m) [hostOps1] c main_v2
      = Cert.Encoder.wholeArray (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v2) = _
  after_results
  funext i
  obtain ⟨b, t, k, rfl⟩ : ∃ (b : Fin 32) (t : Fin 512) (k : Fin 64), i = ix3 b t k := ⟨i 0, i 1, i 2, eq_ix3 i⟩
  have hr : 512 * b.val + t.val < 16384 := by have := b.isLt; have := t.isLt; omega
  have e := (Pipeline.withArrays_arr spec0 launch0.win.arr_inj c (V0 m c)
    (fun w => (dats m 0 c).arrAt w cfg0.N) 6).trans (final m c)
  show shapeCast S32x512x64 (Pipeline.withArrays spec0 c (V0 m c) (fun w => (dats m 0 c).arrAt w cfg0.N)
      (Proc.devRef .tc main_v1) : S16384x64.Idx → EReal) shapeCasts_S16384x64_S32x512x64 (ix3 b t k) = _
  refine (shapeCast_apply _ shapeCasts_S16384x64_S32x512x64 (ix3 b t k)
    (ix2 (n0 := 16384) (n1 := 64) ⟨512 * b.val + t.val, hr⟩ k) ?_).trans ?_
  · rw [Shape.rowMajor_val_two, Shape.rowMajor_val_three]
    show (512 * b.val + t.val) * 64 + k.val = (b.val * 512 + t.val) * 64 + k.val
    omega
  refine (congrFun e _).trans ?_
  show Cert.Encoder.outOf ((V m c main_v0 : S16384x1.Idx → EReal)
        (ix2 (n0 := 16384) (n1 := 1) ⟨512 * b.val + t.val, hr⟩ 0))
      (V m c main_arg1) (V m c main_arg2) (V m c main_arg3) (V m c main_arg4) (V m c main_arg5) k
    = Cert.Encoder.outOf ((m ((c : Thread nD τ).loc main_arg0) : S32x512.Idx → EReal) (ix2 b t))
      (m ((c : Thread nD τ).loc main_arg1)) (m ((c : Thread nD τ).loc main_arg2))
      (m ((c : Thread nD τ).loc main_arg3)) (m ((c : Thread nD τ).loc main_arg4))
      (m ((c : Thread nD τ).loc main_arg5)) k
  rw [V_main_arg1, V_main_arg2, V_main_arg3, V_main_arg4, V_main_arg5, xcol_eq]
  congr 1
  refine shapeCast_apply _ shapeCasts_S32x512_S16384x1 _ (ix2 b t) ?_
  rw [Shape.rowMajor_val_two, Shape.rowMajor_val_two]
  show b.val * 512 + t.val = (512 * b.val + t.val) * 1 + 0
  omega

/-- THE RUN, READ: every weakly fair execution of the program ends with its result at the encoder applied entry by
    entry to the argument arrays, and the arguments as they were. -/
theorem run : θ_run defs (onTc (τ := τ) (main (F := Ideal))) ⟨m, fun _ => 0, ρ⟩ fun r => ∀ c : Dev nD,
      r.2.mem ((c.tc : Thread nD τ).loc main_v2)
        = Cert.Encoder.wholeArray (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 2).trans (((dats m 0 c).arrAt_in 2 rfl _).trans ((A_eq m c 2).trans (V_main_arg4 m c))),
      ((h c).1 1).trans (((dats m 0 c).arrAt_in 1 rfl _).trans ((A_eq m c 1).trans (V_main_arg5 m c)))⟩)
    (run_main m ρ)

end Cert.Encoder.Kernel

end
-- ==== Proof.RefValue.lean ====
/-
  The reference's result, read at one entry.

  The reference computes the encoder on the whole [32, 512] input at once, through [32, 512, 5, 9, 64] intermediates.
  Every operation is pointwise, a broadcast, or a sum over one axis, so entry (b, t, k) of its result depends on
  x (b, t) alone and is the encoder's output at channel k for that value.
-/
import proofs.«145384_j23227183137572_1_alg».proof.Proof.Encoder
import proofs.«145384_j23227183137572_1_alg».proof.Proof.Gen.ReferenceIdeal.Read
import Idealize.ShloMosaic.Lib.ValueIdx
import Idealize.ShloMosaic.PureOps.Ideal.Laws

noncomputable section

namespace Cert.Encoder.Ref

open Idealize.ShloMosaic Idealize.ShloMosaic.ValueIdx Cert.ReferenceIdeal Cert.ReferenceIdeal.Read

section Stages

variable (x0 : (⟨S32x512, .f32⟩ : BufTy).Contents (Elt Ideal)) (x1 x2 : (⟨S9x64, .f32⟩ : BufTy).Contents (Elt Ideal))
  (x3 : (⟨S5x64, .f32⟩ : BufTy).Contents (Elt Ideal)) (x4 : (⟨S9, .f32⟩ : BufTy).Contents (Elt Ideal))
  (x5 : (⟨S5, .f32⟩ : BufTy).Contents (Elt Ideal))

/-! ## The two weight families

Entry (b, t, l) of the distance array is x (b, t) less centre l; the location weights are a pointwise function of it
normalised over l, the scale weights a pointwise function of it and of scale s normalised over s. -/

/-- The signed distance from input (b, t) to centre l. -/
theorem v4_at (b : Fin 32) (t : Fin 512) (l : Fin 5) :
    val_main_v4 (F := Ideal) x0 x5 (ix3 b t l) = x0 (ix2 b t) - x5 (ix1 l) := by
  rw [val_main_v4_apply, val_main_v2_apply, val_main_v0_apply, val_main_v3_apply, val_main_v1_apply]
  have h0 : idx_main_v0 (idx_main_v2 (ix3 b t l)) = ix2 b t :=
    funext fun a => by match a with | ⟨0, _⟩ => rfl | ⟨1, _⟩ => rfl
  have h1 : idx_main_v1 (idx_main_v3 (ix3 b t l)) = ix1 l :=
    funext fun a => by match a with | ⟨0, _⟩ => rfl
  rw [h0, h1]
  rfl

/-- The unnormalised location weight at (b, t, l). -/
theorem v12_at (b : Fin 32) (t : Fin 512) (l : Fin 5) :
    val_main_v12 (F := Ideal) x0 x5 (ix3 b t l) = locNum (x0 (ix2 b t) - x5 (ix1 l)) := by
  rw [val_main_v12_apply, val_main_v11_apply, val_main_cst_1_apply, val_main_v10_apply, val_main_v8_apply,
    val_main_v7_apply, val_main_v5_apply, val_main_v6_apply, val_main_cst_apply, val_main_v9_apply,
    val_main_cst_0_apply, v4_at]
  rfl

/-- Their sum over the five centres at (b, t). -/
theorem v13_at (b : Fin 32) (t : Fin 512) :
    val_main_v13 (F := Ideal) x0 x5 (ix2 b t) = ∑ j : Fin 5, locNum (x0 (ix2 b t) - x5 (ix1 j)) := by
  rw [val_main_v13_apply, val_main_cst_2_apply, Ideal.ofBits_def, Ideal.ofBits_zero_f32, zero_add]
  refine Finset.sum_congr rfl fun j _ => ?_
  have h : idx_main_v13 (ix2 b t) j = ix3 b t j :=
    funext fun a => by match a with | ⟨0, _⟩ => rfl | ⟨1, _⟩ => rfl | ⟨2, _⟩ => rfl
  rw [h, v12_at]

/-- The location weight of centre l at (b, t). -/
theorem v16_at (b : Fin 32) (t : Fin 512) (l : Fin 5) :
    val_main_v16 (F := Ideal) x0 x5 (ix3 b t l) = locWeight (x0 (ix2 b t)) (fun j => x5 (ix1 j)) l := by
  rw [val_main_v16_apply, val_main_v15_apply, val_main_v14_apply, v12_at]
  have h : idx_main_v14 (idx_main_v15 (ix3 b t l)) = ix2 b t :=
    funext fun a => by match a with | ⟨0, _⟩ => rfl | ⟨1, _⟩ => rfl
  rw [h, v13_at]
  rfl

/-- The unnormalised scale weight at (b, t, l, s). -/
theorem v30_at (b : Fin 32) (t : Fin 512) (l : Fin 5) (s : Fin 9) :
    val_main_v30 (F := Ideal) x0 x4 x5 (ix4 b t l s) = scaleNum (x0 (ix2 b t) - x5 (ix1 l)) (x4 (ix1 s)) := by
  rw [val_main_v30_apply, val_main_v29_apply, val_main_cst_5_apply, val_main_v28_apply, val_main_v26_apply,
    val_main_v25_apply, val_main_v24_apply, val_main_v22_apply, val_main_v20_apply, val_main_v18_apply,
    val_main_v17_apply, val_main_v21_apply, val_main_v19_apply, val_main_v23_apply, val_main_cst_3_apply,
    val_main_v27_apply, val_main_cst_4_apply]
  have h0 : idx_main_v18 (idx_main_v20 (ix4 b t l s)) = ix3 b t l :=
    funext fun a => by match a with | ⟨0, _⟩ => rfl | ⟨1, _⟩ => rfl | ⟨2, _⟩ => rfl
  have h1 : idx_main_v19 (idx_main_v21 (ix4 b t l s)) = ix1 s :=
    funext fun a => by match a with | ⟨0, _⟩ => rfl
  rw [h0, h1, v4_at]
  rfl

/-- Their sum over the nine scales at (b, t, l). -/
theorem v31_at (b : Fin 32) (t : Fin 512) (l : Fin 5) :
    val_main_v31 (F := Ideal) x0 x4 x5 (ix3 b t l)
      = ∑ j : Fin 9, scaleNum (x0 (ix2 b t) - x5 (ix1 l)) (x4 (ix1 j)) := by
  rw [val_main_v31_apply, val_main_cst_6_apply, Ideal.ofBits_def, Ideal.ofBits_zero_f32, zero_add]
  refine Finset.sum_congr rfl fun j _ => ?_
  have h : idx_main_v31 (ix3 b t l) j = ix4 b t l j :=
    funext fun a => by match a with | ⟨0, _⟩ => rfl | ⟨1, _⟩ => rfl | ⟨2, _⟩ => rfl | ⟨3, _⟩ => rfl
  rw [h, v30_at]

/-- The scale weight of scale s at (b, t, l). -/
theorem v34_at (b : Fin 32) (t : Fin 512) (l : Fin 5) (s : Fin 9) :
    val_main_v34 (F := Ideal) x0 x4 x5 (ix4 b t l s)
      = scaleWeight (x0 (ix2 b t) - x5 (ix1 l)) (fun j => x4 (ix1 j)) s := by
  rw [val_main_v34_apply, val_main_v33_apply, val_main_v32_apply, v30_at]
  have h : idx_main_v32 (idx_main_v33 (ix4 b t l s)) = ix3 b t l :=
    funext fun a => by match a with | ⟨0, _⟩ => rfl | ⟨1, _⟩ => rfl | ⟨2, _⟩ => rfl
  rw [h, v31_at]
  rfl

/-! ## The encoding and its layer norm over the 64 channels

Entry (b, t, l, s, k) of the encoding is a pointwise function of the distance at (b, t, l), of scale s and of row s of
the weights and biases; mean and variance sum it over k, and live at the one index of the kept size-one axis. -/

/-- The row of 64 encodings at (b, t, l, s), as the specification writes it. -/
abbrev encRow (b : Fin 32) (t : Fin 512) (l : Fin 5) (s : Fin 9) : Fin 64 → EReal :=
  enc (x0 (ix2 b t) - x5 (ix1 l)) (x4 (ix1 s)) (fun j => x1 (ix2 s j)) (fun j => x2 (ix2 s j))

/-- The encoding at (b, t, l, s, k). -/
theorem v45_at (b : Fin 32) (t : Fin 512) (l : Fin 5) (s : Fin 9) (k : Fin 64) :
    val_main_v45 (F := Ideal) x0 x1 x2 x4 x5 (ix5 b t l s k) = encRow x0 x1 x2 x4 x5 b t l s k := by
  rw [val_main_v45_apply, val_main_v39_apply, val_main_v37_apply, val_main_v35_apply, val_main_v38_apply,
    val_main_v36_apply, val_main_v44_apply, val_main_v43_apply, val_main_v42_apply, val_main_v41_apply,
    val_main_v40_apply]
  have h0 : idx_main_v35 (idx_main_v37 (ix5 b t l s k)) = ix3 b t l :=
    funext fun a => by match a with | ⟨0, _⟩ => rfl | ⟨1, _⟩ => rfl | ⟨2, _⟩ => rfl
  have h1 : idx_main_v36 (idx_main_v38 (ix5 b t l s k)) = ix2 s k :=
    funext fun a => by match a with | ⟨0, _⟩ => rfl | ⟨1, _⟩ => rfl
  have h2 : idx_main_v43 (idx_main_v44 (ix5 b t l s k)) = ix2 s k :=
    funext fun a => by match a with | ⟨0, _⟩ => rfl | ⟨1, _⟩ => rfl
  have h3 : idx_main_v40 (idx_main_v41 (ix2 s k)) = ix1 s :=
    funext fun a => by match a with | ⟨0, _⟩ => rfl
  rw [h0, h1, h2, h3, v4_at]
  rfl

/-- The sum of the row at (b, t, l, s). -/
theorem v46_at (b : Fin 32) (t : Fin 512) (l : Fin 5) (s : Fin 9) :
    val_main_v46 (F := Ideal) x0 x1 x2 x4 x5 (ix4 b t l s) = ∑ j : Fin 64, encRow x0 x1 x2 x4 x5 b t l s j := by
  rw [val_main_v46_apply, val_main_cst_7_apply, Ideal.ofBits_def, Ideal.ofBits_zero_f32, zero_add]
  refine Finset.sum_congr rfl fun j _ => ?_
  have h : idx_main_v46 (ix4 b t l s) j = ix5 b t l s j :=
    funext fun a => by match a with | ⟨0, _⟩ => rfl | ⟨1, _⟩ => rfl | ⟨2, _⟩ => rfl | ⟨3, _⟩ => rfl | ⟨4, _⟩ => rfl
  rw [h, v45_at]

/-- The mean of the row, at the one index of the kept axis. -/
theorem v49_at (b : Fin 32) (t : Fin 512) (l : Fin 5) (s : Fin 9) :
    val_main_v49 (F := Ideal) x0 x1 x2 x4 x5 (ix5 b t l s (0 : Fin 1)) = mean (encRow x0 x1 x2 x4 x5 b t l s) := by
  rw [val_main_v49_apply, val_main_v47_apply, val_main_v48_apply, val_main_cst_8_apply]
  have h : idx_main_v47 (ix5 b t l s (0 : Fin 1)) = ix4 b t l s :=
    funext fun a => by match a with | ⟨0, _⟩ => rfl | ⟨1, _⟩ => rfl | ⟨2, _⟩ => rfl | ⟨3, _⟩ => rfl
  rw [h, v46_at]
  rfl

/-- The row less its mean at (b, t, l, s, k): the copy the variance squares. -/
theorem v51_at (b : Fin 32) (t : Fin 512) (l : Fin 5) (s : Fin 9) (k : Fin 64) :
    val_main_v51 (F := Ideal) x0 x1 x2 x4 x5 (ix5 b t l s k) = centred (encRow x0 x1 x2 x4 x5 b t l s) k := by
  rw [val_main_v51_apply, val_main_v50_apply, v45_at]
  have h : idx_main_v50 (ix5 b t l s k) = ix5 b t l s (0 : Fin 1) :=
    funext fun a => by match a with | ⟨0, _⟩ => rfl | ⟨1, _⟩ => rfl | ⟨2, _⟩ => rfl | ⟨3, _⟩ => rfl | ⟨4, _⟩ => rfl
  rw [h, v49_at]
  rfl

/-- The sum of the squares of the centred row at (b, t, l, s). -/
theorem v53_at (b : Fin 32) (t : Fin 512) (l : Fin 5) (s : Fin 9) :
    val_main_v53 (F := Ideal) x0 x1 x2 x4 x5 (ix4 b t l s)
      = ∑ j : Fin 64, centred (encRow x0 x1 x2 x4 x5 b t l s) j * centred (encRow x0 x1 x2 x4 x5 b t l s) j := by
  rw [val_main_v53_apply, val_main_cst_9_apply, Ideal.ofBits_def, Ideal.ofBits_zero_f32, zero_add]
  refine Finset.sum_congr rfl fun j _ => ?_
  have h : idx_main_v53 (ix4 b t l s) j = ix5 b t l s j :=
    funext fun a => by match a with | ⟨0, _⟩ => rfl | ⟨1, _⟩ => rfl | ⟨2, _⟩ => rfl | ⟨3, _⟩ => rfl | ⟨4, _⟩ => rfl
  rw [h, val_main_v52_apply, v51_at]
  rfl

/-- The reciprocal square root of variance + ε', at the one index of the kept axis. -/
theorem v61_at (b : Fin 32) (t : Fin 512) (l : Fin 5) (s : Fin 9) :
    val_main_v61 (F := Ideal) x0 x1 x2 x4 x5 (ix5 b t l s (0 : Fin 1))
      = Ideal.rsqrt (variance (encRow x0 x1 x2 x4 x5 b t l s) + lnEps) := by
  rw [val_main_v61_apply, val_main_v60_apply, val_main_v56_apply, val_main_v54_apply, val_main_v55_apply,
    val_main_cst_10_apply, val_main_v59_apply, val_main_cst_11_apply]
  have h : idx_main_v54 (ix5 b t l s (0 : Fin 1)) = ix4 b t l s :=
    funext fun a => by match a with | ⟨0, _⟩ => rfl | ⟨1, _⟩ => rfl | ⟨2, _⟩ => rfl | ⟨3, _⟩ => rfl
  rw [h, v53_at]
  rfl

/-- The layer-normalised encoding at (b, t, l, s, k). -/
theorem v63_at (b : Fin 32) (t : Fin 512) (l : Fin 5) (s : Fin 9) (k : Fin 64) :
    val_main_v63 (F := Ideal) x0 x1 x2 x4 x5 (ix5 b t l s k) = normed (encRow x0 x1 x2 x4 x5 b t l s) k := by
  rw [val_main_v63_apply, val_main_v58_apply, val_main_v57_apply, val_main_v62_apply, v45_at]
  have h0 : idx_main_v57 (ix5 b t l s k) = ix5 b t l s (0 : Fin 1) :=
    funext fun a => by match a with | ⟨0, _⟩ => rfl | ⟨1, _⟩ => rfl | ⟨2, _⟩ => rfl | ⟨3, _⟩ => rfl | ⟨4, _⟩ => rfl
  have h1 : idx_main_v62 (ix5 b t l s k) = ix5 b t l s (0 : Fin 1) :=
    funext fun a => by match a with | ⟨0, _⟩ => rfl | ⟨1, _⟩ => rfl | ⟨2, _⟩ => rfl | ⟨3, _⟩ => rfl | ⟨4, _⟩ => rfl
  rw [h0, h1, v49_at, v61_at]
  rfl

/-! ## The two weighted sums -/

/-- The normalised encodings weighted and summed over the scales, at (b, t, l, k). -/
theorem v67_at (b : Fin 32) (t : Fin 512) (l : Fin 5) (k : Fin 64) :
    val_main_v67 (F := Ideal) x0 x1 x2 x4 x5 (ix4 b t l k)
      = overScales (x0 (ix2 b t) - x5 (ix1 l)) (fun s => x4 (ix1 s)) (fun s j => x1 (ix2 s j))
          (fun s j => x2 (ix2 s j)) k := by
  rw [val_main_v67_apply, val_main_cst_12_apply, Ideal.ofBits_def, Ideal.ofBits_zero_f32, zero_add]
  refine Finset.sum_congr rfl fun s _ => ?_
  have h0 : idx_main_v67 (ix4 b t l k) s = ix5 b t l s k :=
    funext fun a => by match a with | ⟨0, _⟩ => rfl | ⟨1, _⟩ => rfl | ⟨2, _⟩ => rfl | ⟨3, _⟩ => rfl | ⟨4, _⟩ => rfl
  have h1 : idx_main_v64 (idx_main_v65 (ix5 b t l s k)) = ix4 b t l s :=
    funext fun a => by match a with | ⟨0, _⟩ => rfl | ⟨1, _⟩ => rfl | ⟨2, _⟩ => rfl | ⟨3, _⟩ => rfl
  rw [h0, val_main_v66_apply, val_main_v65_apply, val_main_v64_apply, h1, v63_at, v34_at]
  rfl

/-- The result at (b, t, k): the scale sums plus the location embedding, weighted and summed over the centres. -/
theorem v74_at (b : Fin 32) (t : Fin 512) (k : Fin 64) :
    val_main_v74 (F := Ideal) x0 x1 x2 x3 x4 x5 (ix3 b t k)
      = out (x0 (ix2 b t)) (fun l => x5 (ix1 l)) (fun s => x4 (ix1 s)) (fun s j => x1 (ix2 s j))
          (fun s j => x2 (ix2 s j)) (fun l j => x3 (ix2 l j)) k := by
  rw [val_main_v74_apply, val_main_cst_13_apply, Ideal.ofBits_def, Ideal.ofBits_zero_f32, zero_add]
  refine Finset.sum_congr rfl fun l _ => ?_
  have h0 : idx_main_v74 (ix3 b t k) l = ix4 b t l k :=
    funext fun a => by match a with | ⟨0, _⟩ => rfl | ⟨1, _⟩ => rfl | ⟨2, _⟩ => rfl | ⟨3, _⟩ => rfl
  have h1 : idx_main_v68 (idx_main_v69 (ix4 b t l k)) = ix2 l k :=
    funext fun a => by match a with | ⟨0, _⟩ => rfl | ⟨1, _⟩ => rfl
  have h2 : idx_main_v71 (idx_main_v72 (ix4 b t l k)) = ix3 b t l :=
    funext fun a => by match a with | ⟨0, _⟩ => rfl | ⟨1, _⟩ => rfl | ⟨2, _⟩ => rfl
  rw [h0, val_main_v73_apply, val_main_v70_apply, val_main_v69_apply, val_main_v68_apply, val_main_v72_apply,
    val_main_v71_apply, h1, h2, v67_at, v16_at]
  rfl

end Stages

/-- The reference's result, as a function of its six argument arrays, is the encoder applied entry by entry. -/
theorem ref_eq (x0 : (⟨S32x512, .f32⟩ : BufTy).Contents (Elt Ideal)) (x1 x2 : (⟨S9x64, .f32⟩ : BufTy).Contents (Elt Ideal))
    (x3 : (⟨S5x64, .f32⟩ : BufTy).Contents (Elt Ideal)) (x4 : (⟨S9, .f32⟩ : BufTy).Contents (Elt Ideal))
    (x5 : (⟨S5, .f32⟩ : BufTy).Contents (Elt Ideal)) :
    val_main_v74 (F := Ideal) x0 x1 x2 x3 x4 x5 = Cert.Encoder.wholeArray x0 x1 x2 x3 x4 x5 := by
  funext i
  obtain ⟨b, t, k, rfl⟩ : ∃ (b : Fin 32) (t : Fin 512) (k : Fin 64), i = ix3 b t k := ⟨i 0, i 1, i 2, eq_ix3 i⟩
  rw [v74_at]
  rfl

end Cert.Encoder.Ref

end
-- ==== Proof.lean ====
/-
  The multi-bias encoder kernel against its jnp reference, over the extended reals.

  The kernel tiles the flattened [16384, 1] column of input values into 128 blocks of 128 rows; on each block it
  forms, for the 5 location centres and 9 scales, the signed distances, the two families of normalised weights, the
  64-channel encodings and their layer norm, and sums over scales and then over centres. The reference does the same
  on the whole [32, 512] input through rank-5 intermediates. At the ideal instance every operation on the two sides
  is the same function of extended reals (the kernel's quotient, logarithm, absolute value and reciprocal square
  root against the host's; a lane sum against the host's sum), applied in the same order to the same f32 literals,
  so no algebraic law is needed and finiteness of the inputs is never used: entry (b, t, k) of both results is the
  encoder's output at channel k for x (b, t) (Proof/Encoder.lean).

  Proof/BodyValue.lean reads the kernel body's stored block at an entry; Proof/KernelValue.lean makes the 128 blocks
  one whole-array function and carries it through the two reshapes; Proof/RefValue.lean reads the reference's
  operations at an entry. The frames are the generated ones; the reference's frame is its generated run with the
  result dropped; the idealization rewrote nothing, so `preserves` is trivial.
-/
import proofs.«145384_j23227183137572_1_alg».proof.Defs
import proofs.«145384_j23227183137572_1_alg».proof.Proof.Gen.Kernel
import proofs.«145384_j23227183137572_1_alg».proof.Proof.Gen.Kernel.Skeleton
import proofs.«145384_j23227183137572_1_alg».proof.Proof.Gen.Kernel.Launch
import proofs.«145384_j23227183137572_1_alg».proof.Proof.Gen.Kernel.Points
import proofs.«145384_j23227183137572_1_alg».proof.Proof.Gen.Kernel.Frame
import proofs.«145384_j23227183137572_1_alg».proof.Proof.Gen.KernelIdeal
import proofs.«145384_j23227183137572_1_alg».proof.Proof.Gen.KernelIdeal.Skeleton
import proofs.«145384_j23227183137572_1_alg».proof.Proof.Gen.KernelIdeal.Launch
import proofs.«145384_j23227183137572_1_alg».proof.Proof.Gen.KernelIdeal.Points
import proofs.«145384_j23227183137572_1_alg».proof.Proof.Gen.KernelIdeal.Frame
import proofs.«145384_j23227183137572_1_alg».proof.Proof.Gen.ReferenceIdeal
import proofs.«145384_j23227183137572_1_alg».proof.Proof.Gen.Pre_finite_inputs
import proofs.«145384_j23227183137572_1_alg».proof.Proof.Gen.ReferenceIdeal.Run
import proofs.«145384_j23227183137572_1_alg».proof.Proof.Gen.ReferenceIdeal.Read
import proofs.«145384_j23227183137572_1_alg».proof.Proof.Encoder
import proofs.«145384_j23227183137572_1_alg».proof.Proof.KernelValue
import proofs.«145384_j23227183137572_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the six arguments, end with the encoder applied entry by entry to those
    arguments: the kernel by its run read through the blocks, the reference by its run read operation by operation. -/
theorem algebraic : Cert.algebraic_KernelIdeal_ReferenceIdeal := by
  intro m ρ m' ρ' _ hagree
  refine ⟨fun c => Cert.Encoder.wholeArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Encoder.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.Encoder.Ref.ref_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
